-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x2048 : Shape := ⟨3, ![32, 512, 2048]⟩
abbrev S512x64 : Shape := ⟨2, ![512, 64]⟩
abbrev S64x2048 : Shape := ⟨2, ![64, 2048]⟩
abbrev S_ : Shape := ⟨0, ![]⟩

class Facts : Prop where
  bcast_S_S32x512x2048 : S_.BroadcastsInDim S32x512x2048 (![] : Fin 0 → Fin S32x512x2048.rank)
  reducesTo_S32x512x2048_S_d0_1_2 : S32x512x2048.ReducesTo [0, 1, 2] S_
  h_S_ : 0 < S_.numel
  bcast_S_S512x64 : S_.BroadcastsInDim S512x64 (![] : Fin 0 → Fin S512x64.rank)
  reducesTo_S512x64_S_d0_1 : S512x64.ReducesTo [0, 1] S_
  bcast_S_S64x2048 : S_.BroadcastsInDim S64x2048 (![] : Fin 0 → Fin S64x2048.rank)
  reducesTo_S64x2048_S_d0_1 : S64x2048.ReducesTo [0, 1] S_

variable [Facts]

def fn_part1 {F : FTy → Type} [FloatOps F] (main_arg2 : FVec F S64x2048 .f32) (main_v13 : IVec S_ 1) (main_v15 : IVec S512x64 1) (main_c_5 : IVec S_ 1) : IVec S_ 1 :=
  let main_v16 : IVec S_ 1 := (fun x v => Host.reduce IntOp.andi x v reducesTo_S512x64_S_d0_1 h_S_) main_v15 main_c_5
  let main_v17 : IVec S_ 1 := andi main_v13 main_v16
  let main_cst_6 : FVec F S_ .f32 := constant S_ .f32 0x00000000#32
  let main_v18 : FVec F S64x2048 .f32 := broadcastInDim S64x2048 ![] bcast_S_S64x2048 main_cst_6
  let main_v19 : IVec S64x2048 1 := cmpf .oge main_arg2 main_v18
  let main_c_7 : IVec S_ 1 := constantI S_ 1 1#1
  let main_v20 : IVec S_ 1 := (fun x v => Host.reduce IntOp.andi x v reducesTo_S64x2048_S_d0_1 h_S_) main_v19 main_c_7
  let main_v21 : IVec S_ 1 := andi main_v17 main_v20
  main_v21

def fn {F : FTy → Type} [FloatOps F] (main_arg0 : FVec F S32x512x2048 .f32) (main_arg1 : FVec F S512x64 .f32) (main_arg2 : FVec F S64x2048 .f32) : IVec S_ 1 :=
  let main_v0 : FVec F S32x512x2048 .f32 := Host.absf main_arg0
  let main_cst : FVec F S_ .f32 := constant S_ .f32 0x7F800000#32
  let main_v1 : FVec F S32x512x2048 .f32 := broadcastInDim S32x512x2048 ![] bcast_S_S32x512x2048 main_cst
  let main_v2 : IVec S32x512x2048 1 := cmpf .olt main_v0 main_v1
  let main_c : IVec S_ 1 := constantI S_ 1 1#1
  let main_v3 : IVec S_ 1 := (fun x v => Host.reduce IntOp.andi x v reducesTo_S32x512x2048_S_d0_1_2 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64x2048 .f32 := Host.absf main_arg2
  let main_cst_2 : FVec F S_ .f32 := constant S_ .f32 0x7F800000#32
  let main_v10 : FVec F S64x2048 .f32 := broadcastInDim S64x2048 ![] bcast_S_S64x2048 main_cst_2
  let main_v11 : IVec S64x2048 1 := cmpf .olt main_v9 main_v10
  let main_c_3 : IVec S_ 1 := constantI S_ 1 1#1
  let main_v12 : IVec S_ 1 := (fun x v => Host.reduce IntOp.andi x v reducesTo_S64x2048_S_d0_1 h_S_) main_v11 main_c_3
  let main_v13 : IVec S_ 1 := andi main_v8 main_v12
  let main_cst_4 : FVec F S_ .f32 := constant S_ .f32 0x00000000#32
  let main_v14 : FVec F S512x64 .f32 := broadcastInDim S512x64 ![] bcast_S_S512x64 main_cst_4
  let main_v15 : IVec S512x64 1 := cmpf .oge main_arg1 main_v14
  let main_c_5 : IVec S_ 1 := constantI S_ 1 1#1
  fn_part1 (F := F) main_arg2 main_v13 main_v15 main_c_5
-- ==== Kernel.lean ====
abbrev S32x512x2048 : Shape := ⟨3, ![32, 512, 2048]⟩
abbrev S512x64 : Shape := ⟨2, ![512, 64]⟩
abbrev S64x2048 : Shape := ⟨2, ![64, 2048]⟩
abbrev S1x512x2048 : Shape := ⟨3, ![1, 512, 2048]⟩
abbrev S512x2048 : Shape := ⟨2, ![512, 2048]⟩

abbrev nBuf : Space → Nat
  | .hbm => 4
  | .vmem => 6
  | .smem => 0
  | _ => 0

abbrev bufTy : (tb : Table) → Fin (tcTables nBuf tb) → BufTy
  | .hbm, ⟨0, _⟩ => ⟨S32x512x2048, .f32⟩
  | .hbm, ⟨1, _⟩ => ⟨S512x64, .f32⟩
  | .hbm, ⟨2, _⟩ => ⟨S64x2048, .f32⟩
  | .hbm, ⟨3, _⟩ => ⟨S32x512x2048, .f32⟩
  | .local _ .vmem, ⟨0, _⟩ => ⟨S1x512x2048, .f32⟩
  | .local _ .vmem, ⟨1, _⟩ => ⟨S1x512x2048, .f32⟩
  | .local _ .vmem, ⟨2, _⟩ => ⟨S512x64, .f32⟩
  | .local _ .vmem, ⟨3, _⟩ => ⟨S64x2048, .f32⟩
  | .local _ .vmem, ⟨4, _⟩ => ⟨S1x512x2048, .f32⟩
  | .local _ .vmem, ⟨5, _⟩ => ⟨S1x512x2048, .f32⟩
  | _, _ => ⟨S32x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S64x2048_S64x2048_0_0 : ∀ a, (![0, 0] : Fin 2 → Nat) a + S64x2048.size a ≤ S64x2048.size a
  h_S64x2048 : 0 < S64x2048.numel
  shapeCasts_S512x2048_S1x512x2048 : S512x2048.ShapeCasts S1x512x2048
  dot_S512x64_S512x2048_S64x2048_0_0_1_1_n_n_wf : DotDims.WF S512x64 S512x2048 S64x2048 [0] [0] [1] [1] [] []
  dot_S512x64_S64x2048_S512x2048_1_0_0_1_n_n_wf : DotDims.WF S512x64 S64x2048 S512x2048 [1] [0] [0] [1] [] []
  dot_S512x2048_S64x2048_S512x64_1_1_0_0_n_n_wf : DotDims.WF S512x2048 S64x2048 S512x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S32x512x2048.size a
  hwx0_0 : ∀ i : grid0.Coords, EltTy.bits .f32 = 32 ∨ (Rect.block (s := S32x512x2048) S1x512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x2048.size a ≤ S64x2048.size a
  hwx0_2 : ∀ i : grid0.Coords, EltTy.bits .f32 = 32 ∨ (Rect.block (s := S64x2048) S64x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S32x512x2048.size a
  hwx0_3 : ∀ i : grid0.Coords, EltTy.bits .f32 = 32 ∨ (Rect.block (s := S32x512x2048) S1x512x2048.size (cc0_transform_3 i) (hinb0_3 i)).WholeWords (EltTy.packing .f32)

variable [Facts₀]

def dot_S512x64_S512x2048_S64x2048_0_0_1_1_n_n : DotDims S512x64 S512x2048 S64x2048 where
  lhsContracting := [0]
  rhsContracting := [0]
  lhsNonContracting := [1]
  rhsNonContracting := [1]
  lhsBatch := []
  rhsBatch := []
  wf := dot_S512x64_S512x2048_S64x2048_0_0_1_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S64x2048_S512x64_1_1_0_0_n_n : DotDims S512x2048 S64x2048 S512x64 where
  lhsContracting := [1]
  rhsContracting := [1]
  lhsNonContracting := [0]
  rhsNonContracting := [0]
  lhsBatch := []
  rhsBatch := []
  wf := dot_S512x2048_S64x2048_S512x64_1_1_0_0_n_n_wf

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x512x2048 : Shape := ⟨3, ![32, 512, 2048]⟩
abbrev S512x64 : Shape := ⟨2, ![512, 64]⟩
abbrev S64x2048 : Shape := ⟨2, ![64, 2048]⟩
abbrev S_ : Shape := ⟨0, ![]⟩
abbrev S32x512x64 : Shape := ⟨3, ![32, 512, 64]⟩
abbrev S32x64x2048 : Shape := ⟨3, ![32, 64, 2048]⟩
abbrev S32x64x512 : Shape := ⟨3, ![32, 64, 512]⟩
abbrev S32x2048x64 : Shape := ⟨3, ![32, 2048, 64]⟩
abbrev S32x64x64 : Shape := ⟨3, ![32, 64, 64]⟩

abbrev nBuf : Space → Nat
  | .hbm => 117
  | .vmem => 0
  | .smem => 0
  | _ => 0

abbrev bufTy : (tb : Table) → Fin (tcTables nBuf tb) → BufTy
  | .hbm, ⟨0, _⟩ => ⟨S32x512x2048, .f32⟩
  | .hbm, ⟨1, _⟩ => ⟨S512x64, .f32⟩
  | .hbm, ⟨2, _⟩ => ⟨S64x2048, .f32⟩
  | .hbm, ⟨3, _⟩ => ⟨S_, .f32⟩
  | .hbm, ⟨4, _⟩ => ⟨S32x512x2048, .f32⟩
  | .hbm, ⟨5, _⟩ => ⟨S32x512x2048, .f32⟩
  | .hbm, ⟨6, _⟩ => ⟨S32x512x64, .f32⟩
  | .hbm, ⟨7, _⟩ => ⟨S32x64x2048, .f32⟩
  | .hbm, ⟨8, _⟩ => ⟨S32x64x512, .f32⟩
  | .hbm, ⟨9, _⟩ => ⟨S32x2048x64, .f32⟩
  | .hbm, ⟨10, _⟩ => ⟨S32x64x2048, .f32⟩
  | .hbm, ⟨11, _⟩ => ⟨S32x64x64, .f32⟩
  | .hbm, ⟨12, _⟩ => ⟨S32x64x2048, .f32⟩
  | .hbm, ⟨13, _⟩ => ⟨S_, .f32⟩
  | .hbm, ⟨14, _⟩ => ⟨S32x64x2048, .f32⟩
  | .hbm, ⟨15, _⟩ => ⟨S32x64x2048, .f32⟩
  | .hbm, ⟨16, _⟩ => ⟨S32x64x2048, .f32⟩
  | .hbm, ⟨17, _⟩ => ⟨S32x64x2048, .f32⟩
  | .hbm, ⟨18, _⟩ => ⟨S32x512x64, .f32⟩
  | .hbm, ⟨19, _⟩ => ⟨S32x512x2048, .f32⟩
  | .hbm, ⟨20, _⟩ => ⟨S32x512x64, .f32⟩
  | .hbm, ⟨21, _⟩ => ⟨S_, .f32⟩
  | .hbm, ⟨22, _⟩ => ⟨S32x512x64, .f32⟩
  | .hbm, ⟨23, _⟩ => ⟨S32x512x64, .f32⟩
  | .hbm, ⟨24, _⟩ => ⟨S32x512x64, .f32⟩
  | .hbm, ⟨25, _⟩ => ⟨S32x512x64, .f32⟩
  | .hbm, ⟨26, _⟩ => ⟨S32x64x512, .f32⟩
  | .hbm, ⟨27, _⟩ => ⟨S32x2048x64, .f32⟩
  | .hbm, ⟨28, _⟩ => ⟨S32x64x2048, .f32⟩
  | .hbm, ⟨29, _⟩ => ⟨S32x64x64, .f32⟩
  | .hbm, ⟨30, _⟩ => ⟨S32x64x2048, .f32⟩
  | .hbm, ⟨31, _⟩ => ⟨S_, .f32⟩
  | .hbm, ⟨32, _⟩ => ⟨S32x64x2048, .f32⟩
  | .hbm, ⟨33, _⟩ => ⟨S32x64x2048, .f32⟩
  | .hbm, ⟨34, _⟩ => ⟨S32x64x2048, .f32⟩
  | .hbm, ⟨35, _⟩ => ⟨S32x64x2048, .f32⟩
  | .hbm, ⟨36, _⟩ => ⟨S32x512x64, .f32⟩
  | .hbm, ⟨37, _⟩ => ⟨S32x512x2048, .f32⟩
  | .hbm, ⟨38, _⟩ => ⟨S32x512x64, .f32⟩
  | .hbm, ⟨39, _⟩ => ⟨S_, .f32⟩
  | .hbm, ⟨40, _⟩ => ⟨S32x512x64, .f32⟩
  | .hbm, ⟨41, _⟩ => ⟨S32x512x64, .f32⟩
  | .hbm, ⟨42, _⟩ => ⟨S32x512x64, .f32⟩
  | .hbm, ⟨43, _⟩ => ⟨S32x512x64, .f32⟩
  | .hbm, ⟨44, _⟩ => ⟨S32x64x512, .f32⟩
  | .hbm, ⟨45, _⟩ => ⟨S32x2048x64, .f32⟩
  | .hbm, ⟨46, _⟩ => ⟨S32x64x2048, .f32⟩
  | .hbm, ⟨47, _⟩ => ⟨S32x64x64, .f32⟩
  | .hbm, ⟨48, _⟩ => ⟨S32x64x2048, .f32⟩
  | .hbm, ⟨49, _⟩ => ⟨S_, .f32⟩
  | .hbm, ⟨50, _⟩ => ⟨S32x64x2048, .f32⟩
  | .hbm, ⟨51, _⟩ => ⟨S32x64x2048, .f32⟩
  | .hbm, ⟨52, _⟩ => ⟨S32x64x2048, .f32⟩
  | .hbm, ⟨53, _⟩ => ⟨S32x64x2048, .f32⟩
  | .hbm, ⟨54, _⟩ => ⟨S32x512x64, .f32⟩
  | .hbm, ⟨55, _⟩ => ⟨S32x512x2048, .f32⟩
  | .hbm, ⟨56, _⟩ => ⟨S32x512x64, .f32⟩
  | .hbm, ⟨57, _⟩ => ⟨S_, .f32⟩
  | .hbm, ⟨58, _⟩ => ⟨S32x512x64, .f32⟩
  | .hbm, ⟨59, _⟩ => ⟨S32x512x64, .f32⟩
  | .hbm, ⟨60, _⟩ => ⟨S32x512x64, .f32⟩
  | .hbm, ⟨61, _⟩ => ⟨S32x512x64, .f32⟩
  | .hbm, ⟨62, _⟩ => ⟨S32x64x512, .f32⟩
  | .hbm, ⟨63, _⟩ => ⟨S32x2048x64, .f32⟩
  | .hbm, ⟨64, _⟩ => ⟨S32x64x2048, .f32⟩
  | .hbm, ⟨65, _⟩ => ⟨S32x64x64, .f32⟩
  | .hbm, ⟨66, _⟩ => ⟨S32x64x2048, .f32⟩
  | .hbm, ⟨67, _⟩ => ⟨S_, .f32⟩
  | .hbm, ⟨68, _⟩ => ⟨S32x64x2048, .f32⟩
  | .hbm, ⟨69, _⟩ => ⟨S32x64x2048, .f32⟩
  | .hbm, ⟨70, _⟩ => ⟨S32x64x2048, .f32⟩
  | .hbm, ⟨71, _⟩ => ⟨S32x64x2048, .f32⟩
  | .hbm, ⟨72, _⟩ => ⟨S32x512x64, .f32⟩
  | .hbm, ⟨73, _⟩ => ⟨S32x512x2048, .f32⟩
  | .hbm, ⟨74, _⟩ => ⟨S32x512x64, .f32⟩
  | .hbm, ⟨75, _⟩ => ⟨S_, .f32⟩
  | .hbm, ⟨76, _⟩ => ⟨S32x512x64, .f32⟩
  | .hbm, ⟨77, _⟩ => ⟨S32x512x64, .f32⟩
  | .hbm, ⟨78, _⟩ => ⟨S32x512x64, .f32⟩
  | .hbm, ⟨79, _⟩ => ⟨S32x512x64, .f32⟩
  | .hbm, ⟨80, _⟩ => ⟨S32x64x512, .f32⟩
  | .hbm, ⟨81, _⟩ => ⟨S32x2048x64, .f32⟩
  | .hbm, ⟨82, _⟩ => ⟨S32x64x2048, .f32⟩
  | .hbm, ⟨83, _⟩ => ⟨S32x64x64, .f32⟩
  | .hbm, ⟨84, _⟩ => ⟨S32x64x2048, .f32⟩
  | .hbm, ⟨85, _⟩ => ⟨S_, .f32⟩
  | .hbm, ⟨86, _⟩ => ⟨S32x64x2048, .f32⟩
  | .hbm, ⟨87, _⟩ => ⟨S32x64x2048, .f32⟩
  | .hbm, ⟨88, _⟩ => ⟨S32x64x2048, .f32⟩
  | .hbm, ⟨89, _⟩ => ⟨S32x64x2048, .f32⟩
  | .hbm, ⟨90, _⟩ => ⟨S32x512x64, .f32⟩
  | .hbm, ⟨91, _⟩ => ⟨S32x512x2048, .f32⟩
  | .hbm, ⟨92, _⟩ => ⟨S32x512x64, .f32⟩
  | .hbm, ⟨93, _⟩ => ⟨S_, .f32⟩
  | .hbm, ⟨94, _⟩ => ⟨S32x512x64, .f32⟩
  | .hbm, ⟨95, _⟩ => ⟨S32x512x64, .f32⟩
  | .hbm, ⟨96, _⟩ => ⟨S32x512x64, .f32⟩
  | .hbm, ⟨97, _⟩ => ⟨S32x512x64, .f32⟩
  | .hbm, ⟨98, _⟩ => ⟨S32x64x512, .f32⟩
  | .hbm, ⟨99, _⟩ => ⟨S32x2048x64, .f32⟩
  | .hbm, ⟨100, _⟩ => ⟨S32x64x2048, .f32⟩
  | .hbm, ⟨101, _⟩ => ⟨S32x64x64, .f32⟩
  | .hbm, ⟨102, _⟩ => ⟨S32x64x2048, .f32⟩
  | .hbm, ⟨103, _⟩ => ⟨S_, .f32⟩
  | .hbm, ⟨104, _⟩ => ⟨S32x64x2048, .f32⟩
  | .hbm, ⟨105, _⟩ => ⟨S32x64x2048, .f32⟩
  | .hbm, ⟨106, _⟩ => ⟨S32x64x2048, .f32⟩
  | .hbm, ⟨107, _⟩ => ⟨S32x64x2048, .f32⟩
  | .hbm, ⟨108, _⟩ => ⟨S32x512x64, .f32⟩
  | .hbm, ⟨109, _⟩ => ⟨S32x512x2048, .f32⟩
  | .hbm, ⟨110, _⟩ => ⟨S32x512x64, .f32⟩
  | .hbm, ⟨111, _⟩ => ⟨S_, .f32⟩
  | .hbm, ⟨112, _⟩ => ⟨S32x512x64, .f32⟩
  | .hbm, ⟨113, _⟩ => ⟨S32x512x64, .f32⟩
  | .hbm, ⟨114, _⟩ => ⟨S32x512x64, .f32⟩
  | .hbm, ⟨115, _⟩ => ⟨S32x512x64, .f32⟩
  | .hbm, ⟨116, _⟩ => ⟨S32x512x2048, .f32⟩
  | _, _ => ⟨S32x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_3 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_4 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_cst_5 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_cst_6 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_cst_7 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_cst_8 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_cst_9 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_cst_10 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩

abbrev nD : Nat := 1
abbrev τ : Topo := Topo.v7x

variable {F : FTy → Type} [FloatOps F]

class Facts₀ : Prop where
  bcast_S_S32x512x2048 : S_.BroadcastsInDim S32x512x2048 (![] : Fin 0 → Fin S32x512x2048.rank)
  bcast_S512x64_S32x512x64_1_2 : S512x64.BroadcastsInDim S32x512x64 (![1, 2] : Fin 2 → Fin S32x512x64.rank)
  bcast_S64x2048_S32x64x2048_1_2 : S64x2048.BroadcastsInDim S32x64x2048 (![1, 2] : Fin 2 → Fin S32x64x2048.rank)
  transposes_S32x512x64_S32x64x512_0_2_1 : S32x512x64.Transposes [0, 2, 1] S32x64x512
  transposes_S32x64x2048_S32x2048x64_0_2_1 : S32x64x2048.Transposes [0, 2, 1] S32x2048x64
  bcast_S_S32x64x2048 : S_.BroadcastsInDim S32x64x2048 (![] : Fin 0 → Fin S32x64x2048.rank)
  bcast_S_S32x512x64 : S_.BroadcastsInDim S32x512x64 (![] : Fin 0 → Fin S32x512x64.rank)
  dot_S32x64x512_S32x512x2048_S32x64x2048_2_1_1_2_0_0_wf : DotDims.WF S32x64x512 S32x512x2048 S32x64x2048 [2] [1] [1] [2] [0] [0]
  dot_S32x64x512_S32x512x64_S32x64x64_2_1_1_2_0_0_wf : DotDims.WF S32x64x512 S32x512x64 S32x64x64 [2] [1] [1] [2] [0] [0]
  dot_S32x64x64_S32x64x2048_S32x64x2048_2_1_1_2_0_0_wf : DotDims.WF S32x64x64 S32x64x2048 S32x64x2048 [2] [1] [1] [2] [0] [0]
  dot_S32x512x2048_S32x2048x64_S32x512x64_2_1_1_2_0_0_wf : DotDims.WF S32x512x2048 S32x2048x64 S32x512x64 [2] [1] [1] [2] [0] [0]
  dot_S32x512x64_S32x64x2048_S32x512x2048_2_1_1_2_0_0_wf : DotDims.WF S32x512x64 S32x64x2048 S32x512x2048 [2] [1] [1] [2] [0] [0]

variable [Facts₀]

def dot_S32x64x512_S32x512x2048_S32x64x2048_2_1_1_2_0_0 : DotDims S32x64x512 S32x512x2048 S32x64x2048 where
  lhsContracting := [2]
  rhsContracting := [1]
  lhsNonContracting := [1]
  rhsNonContracting := [2]
  lhsBatch := [0]
  rhsBatch := [0]
  wf := dot_S32x64x512_S32x512x2048_S32x64x2048_2_1_1_2_0_0_wf
def dot_S32x64x512_S32x512x64_S32x64x64_2_1_1_2_0_0 : DotDims S32x64x512 S32x512x64 S32x64x64 where
  lhsContracting := [2]
  rhsContracting := [1]
  lhsNonContracting := [1]
  rhsNonContracting := [2]
  lhsBatch := [0]
  rhsBatch := [0]
  wf := dot_S32x64x512_S32x512x64_S32x64x64_2_1_1_2_0_0_wf
def dot_S32x64x64_S32x64x2048_S32x64x2048_2_1_1_2_0_0 : DotDims S32x64x64 S32x64x2048 S32x64x2048 where
  lhsContracting := [2]
  rhsContracting := [1]
  lhsNonContracting := [1]
  rhsNonContracting := [2]
  lhsBatch := [0]
  rhsBatch := [0]
  wf := dot_S32x64x64_S32x64x2048_S32x64x2048_2_1_1_2_0_0_wf
def dot_S32x512x2048_S32x2048x64_S32x512x64_2_1_1_2_0_0 : DotDims S32x512x2048 S32x2048x64 S32x512x64 where
  lhsContracting := [2]
  rhsContracting := [1]
  lhsNonContracting := [1]
  rhsNonContracting := [2]
  lhsBatch := [0]
  rhsBatch := [0]
  wf := dot_S32x512x2048_S32x2048x64_S32x512x64_2_1_1_2_0_0_wf
def dot_S32x512x64_S32x64x2048_S32x512x2048_2_1_1_2_0_0 : DotDims S32x512x64 S32x64x2048 S32x512x2048 where
  lhsContracting := [2]
  rhsContracting := [1]
  lhsNonContracting := [1]
  rhsNonContracting := [2]
  lhsBatch := [0]
  rhsBatch := [0]
  wf := dot_S32x512x64_S32x64x2048_S32x512x2048_2_1_1_2_0_0_wf

class Facts : Prop extends Facts₀ where

variable [Facts]
-- ==== Proof.NmfReal.lean ====
/-
  The multiplicative update over the reals.  For a non-negative data matrix X (512 x 2048) and non-negative factors
  D (512 x 64), C (64 x 2048) one update is
      C' = C * (D^T X / (D^T (D C) + eps)),      D' = D * (X C^T / ((D C) C^T + eps)),
  with eps > 0.  Every denominator is at least eps, so the update of non-negative factors is again a pair of
  non-negative real matrices: no quotient ever meets a zero divisor, and on the extended reals every value stays a real
  number.  That is what lets the two groupings D^T (D C) and (D^T D) C of the triple product be identified: over the
  reals the product of matrices is associative (on the extended reals it is not, once an infinity appears).
-/
import Mathlib.Data.EReal.Inv
import Mathlib.Algebra.BigOperators.Ring.Finset
import Mathlib.Algebra.Order.BigOperators.Ring.Finset
import Idealize.ShloMosaic.PureOps.Ideal
import Idealize.ShloMosaic.PureOps.Ideal.Laws
import Idealize.ShloMosaic.Lib.ValueIdx

noncomputable section

namespace Cert.Nmf

open Idealize.ShloMosaic

/-- The guard of the denominators: the binary value of the single-precision word 0x32ABCC77. -/
def eps : ℝ := 11258999 / 562949953421312

theorem eps_pos : 0 < eps := by unfold eps; norm_num

abbrev MX := Fin 512 → Fin 2048 → ℝ
abbrev MD := Fin 512 → Fin 64 → ℝ
abbrev MC := Fin 64 → Fin 2048 → ℝ

/-- The product D C. -/
def prod (D : MD) (C : MC) : MX := fun d n => ∑ s, D d s * C s n

/-- The update of the right factor. -/
def stepC (X : MX) (D : MD) (C : MC) : MC :=
  fun r n => C r n * ((∑ d, D d r * X d n) / ((∑ d, D d r * prod D C d n) + eps))

/-- The update of the left factor. -/
def stepD (X : MX) (D : MD) (C : MC) : MD :=
  fun d r => D d r * ((∑ n, X d n * C r n) / ((∑ n, prod D C d n * C r n) + eps))

/-- `k` updates of a pair of factors (both factors of an update from the previous pair). -/
def iter (X : MX) : ℕ → MD × MC → MD × MC
  | 0, p => p
  | k + 1, p => (stepD X (iter X k p).1 (iter X k p).2, stepC X (iter X k p).1 (iter X k p).2)

/-- The rectified data. -/
def relu (X : MX) : MX := fun d n => max (X d n) 0

/-- The whole computation on one batch: six updates from (D, C) on the rectified data, then the product. -/
def spec (X : MX) (D : MD) (C : MC) : MX := prod (iter (relu X) 6 (D, C)).1 (iter (relu X) 6 (D, C)).2

/-- A matrix (or a batch of matrices) of non-negative entries. -/
def Nonneg2 {a b : ℕ} (M : Fin a → Fin b → ℝ) : Prop := ∀ i j, 0 ≤ M i j

theorem relu_nonneg (X : MX) : Nonneg2 (relu X) := fun _ _ => le_max_right _ _

theorem prod_nonneg {D : MD} {C : MC} (hD : Nonneg2 D) (hC : Nonneg2 C) : Nonneg2 (prod D C) :=
  fun d n => Finset.sum_nonneg fun s _ => mul_nonneg (hD d s) (hC s n)

/-- The two denominators are positive on non-negative factors. -/
theorem denC_pos {D : MD} {C : MC} (hD : Nonneg2 D) (hC : Nonneg2 C) (r : Fin 64) (n : Fin 2048) :
    0 < (∑ d, D d r * prod D C d n) + eps :=
  add_pos_of_nonneg_of_pos (Finset.sum_nonneg fun d _ => mul_nonneg (hD d r) (prod_nonneg hD hC d n)) eps_pos

theorem denD_pos {D : MD} {C : MC} (hD : Nonneg2 D) (hC : Nonneg2 C) (d : Fin 512) (r : Fin 64) :
    0 < (∑ n, prod D C d n * C r n) + eps :=
  add_pos_of_nonneg_of_pos (Finset.sum_nonneg fun n _ => mul_nonneg (prod_nonneg hD hC d n) (hC r n)) eps_pos

theorem stepC_nonneg {X : MX} {D : MD} {C : MC} (hX : Nonneg2 X) (hD : Nonneg2 D) (hC : Nonneg2 C) : Nonneg2 (stepC X D C) :=
  fun r n => mul_nonneg (hC r n) (div_nonneg (Finset.sum_nonneg fun d _ => mul_nonneg (hD d r) (hX d n)) (denC_pos hD hC r n).le)

theorem stepD_nonneg {X : MX} {D : MD} {C : MC} (hX : Nonneg2 X) (hD : Nonneg2 D) (hC : Nonneg2 C) : Nonneg2 (stepD X D C) :=
  fun d r => mul_nonneg (hD d r) (div_nonneg (Finset.sum_nonneg fun n _ => mul_nonneg (hX d n) (hC r n)) (denD_pos hD hC d r).le)

theorem iter_nonneg {X : MX} (hX : Nonneg2 X) {D : MD} {C : MC} (hD : Nonneg2 D) (hC : Nonneg2 C) :
    ∀ k, Nonneg2 (iter X k (D, C)).1 ∧ Nonneg2 (iter X k (D, C)).2
  | 0 => ⟨hD, hC⟩
  | k + 1 => ⟨stepD_nonneg hX (iter_nonneg hX hD hC k).1 (iter_nonneg hX hD hC k).2,
      stepC_nonneg hX (iter_nonneg hX hD hC k).1 (iter_nonneg hX hD hC k).2⟩

/-- Associativity of the triple product D^T D C, entry by entry: the grouping (D^T D) C equals D^T (D C). -/
theorem assoc_DtDC (D : MD) (C : MC) (r : Fin 64) (n : Fin 2048) :
    (∑ s, (∑ d, D d r * D d s) * C s n) = ∑ d, D d r * prod D C d n := by
  unfold prod
  simp only [Finset.sum_mul, Finset.mul_sum]
  rw [Finset.sum_comm]
  exact Finset.sum_congr rfl fun d _ => Finset.sum_congr rfl fun s _ => by ring

/-! ### Real numbers inside the extended reals -/

/-- A finite sum of real numbers, read in the extended reals, is the sum of the readings. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exact quotient of two real numbers by a non-zero divisor is the real quotient. -/
theorem div_coe_coe (a b : ℝ) (hb : b ≠ 0) : Ideal.div (a : EReal) (b : EReal) = ((a / b : ℝ) : EReal) := by
  rw [Ideal.div_coe hb, ← EReal.coe_mul, mul_one_div]

/-- The guard's word denotes `eps`. -/
theorem eps_bits : Ideal.ofBits .f32 0x32ABCC77#32 = ((eps : ℝ) : EReal) := by
  unfold eps
  simp [Ideal.ofBits, Ideal.ieee, -EReal.coe_mul]; norm_num

/-- The zero word denotes 0. -/
theorem zero_bits : Ideal.ofBits .f32 0x00000000#32 = ((0 : ℝ) : EReal) := by
  rw [Ideal.ofBits_zero_f32, EReal.coe_zero]

/-! ### Arrays that hold real matrices -/

/-- A rank-2 array of extended reals holds the real matrix `M`. -/
def Rep2 {a b : ℕ} (v : (⟨2, ![a, b]⟩ : Shape).Idx → EReal) (M : Fin a → Fin b → ℝ) : Prop :=
  ∀ p q, v (ValueIdx.ix2 p q) = ((M p q : ℝ) : EReal)

/-- A rank-3 array of extended reals holds the batch of real matrices `M`. -/
def Rep3 {n a b : ℕ} (v : (⟨3, ![n, a, b]⟩ : Shape).Idx → EReal) (M : Fin n → Fin a → Fin b → ℝ) : Prop :=
  ∀ t p q, v (ValueIdx.ix3 t p q) = ((M t p q : ℝ) : EReal)

end Cert.Nmf

end
-- ==== Proof.PreFacts.lean ====
/-
  What the precondition says of the three argument arrays at the extended reals: every entry of the data array is a real
  number, and every entry of the two factors is a non-negative real number.
-/
import proofs.«108616_j8220567404862_1_alg».proof.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Nmf

open Idealize.ShloMosaic Cert.Pre_finite_inputs

variable [Cert.Pre_finite_inputs.Facts]

/-- A one-bit word made from a truth value is 1 exactly when the truth value holds. -/
theorem ofBool_eq_one_iff (b : Bool) : BitVec.ofBool b = 1#1 ↔ b = true := by cases b <;> decide

/-- The binary32 pattern of +∞ denotes the top of the extended reals. -/
theorem ofBits_inf_f32 : Ideal.ofBits .f32 0x7F800000#32 = (⊤ : EReal) := by simp [Ideal.ofBits, Ideal.ieee]

/-- An extended real whose absolute value max a (-a) lies strictly below +∞ is a real number: it is neither ⊤
    (then a itself is ⊤) nor ⊥ (then -a is ⊤). -/
theorem real_of_abs_lt_inf (a : EReal)
    (h : Ideal.cmp .olt (max a (-a)) (Ideal.ofBits .f32 0x7F800000#32) = 1#1) : ∃ r : ℝ, a = (r : EReal) := by
  rw [ofBits_inf_f32] at h
  unfold Ideal.cmp at h
  rw [ofBool_eq_one_iff] at h
  simp only [decide_eq_true_eq, max_lt_iff] at h
  induction a using EReal.rec with
  | bot => exact absurd h.2 (by simp)
  | coe r => exact ⟨r, rfl⟩
  | top => exact absurd h.1 (by simp)

/-- The comparison a ≥ 0 against the binary32 pattern of zero, read back: 0 ≤ a. -/
theorem nonneg_of_ge_zero (a : EReal)
    (h : Ideal.cmp .oge a (Ideal.ofBits .f32 0x00000000#32) = 1#1) : 0 ≤ a := by
  rw [Ideal.ofBits_zero_f32] at h
  unfold Ideal.cmp at h
  rw [ofBool_eq_one_iff] at h
  simpa only [decide_eq_true_eq] using h

theorem pre_facts (x : FVec Ideal S32x512x2048 .f32) (D : FVec Ideal S512x64 .f32) (C : FVec Ideal S64x2048 .f32)
    (h : Cert.Pre_finite_inputs.fn (F := Ideal) x D C = fun _ => 1#1) :
    (∀ i, ∃ r : ℝ, x i = (r : EReal)) ∧ (∀ i, ∃ r : ℝ, 0 ≤ r ∧ D i = (r : EReal)) ∧ (∀ i, ∃ r : ℝ, 0 ≤ r ∧ C i = (r : EReal)) := by
  haveI : Subsingleton S_.Idx := ⟨fun a b => funext fun d => d.elim0⟩
  have e := congrFun h ValueIdx.ix0
  unfold Cert.Pre_finite_inputs.fn Cert.Pre_finite_inputs.fn_part1 at e
  dsimp only at e
  simp only [andi, IntOp.andi_eq_one] at e
  obtain ⟨⟨⟨⟨hx, hD⟩, hC⟩, hD0⟩, hC0⟩ := e
  have fx : ∀ i, ∃ r : ℝ, x i = (r : EReal) := fun i =>
    real_of_abs_lt_inf (x i) (Host.reduce_andi_all _ _ _ _ _ hx i)
  have fD : ∀ i, ∃ r : ℝ, D i = (r : EReal) := fun i =>
    real_of_abs_lt_inf (D i) (Host.reduce_andi_all _ _ _ _ _ hD i)
  have fC : ∀ i, ∃ r : ℝ, C i = (r : EReal) := fun i =>
    real_of_abs_lt_inf (C i) (Host.reduce_andi_all _ _ _ _ _ hC i)
  have gD : ∀ i, 0 ≤ D i := fun i => nonneg_of_ge_zero (D i) (Host.reduce_andi_all _ _ _ _ _ hD0 i)
  have gC : ∀ i, 0 ≤ C i := fun i => nonneg_of_ge_zero (C i) (Host.reduce_andi_all _ _ _ _ _ hC0 i)
  refine ⟨fx, fun i => ?_, fun i => ?_⟩
  · obtain ⟨r, hr⟩ := fD i
    exact ⟨r, by have := gD i; rw [hr] at this; exact_mod_cast this, hr⟩
  · obtain ⟨r, hr⟩ := fC i
    exact ⟨r, by have := gC i; rw [hr] at this; exact_mod_cast this, hr⟩

end Cert.Nmf

end
-- ==== Proof.KernelDefs.lean ====
/-
  The kernel body as iterated multiplicative updates.  One grid point holds a data block X (after rectification), a
  left factor D (512 x 64) and a right factor C (64 x 2048).  One update replaces
      C by C * (D^T X / (D^T (D C) + eps))      and      D by D * (X C^T / ((D C) C^T + eps)),
  every product a contraction into a zero accumulator, quotients and products entrywise; six updates, then the product D C.
  The definitions below name one update and the six iterates, over any float instance.
-/
import proofs.«108616_j8220567404862_1_alg».proof.KernelIdeal

noncomputable section

namespace Cert.Nmf.K

open Idealize.ShloMosaic Cert.KernelIdeal Cert.KernelIdeal.Facts₀ Cert.KernelIdeal.Facts

variable {F : FTy → Type} [FloatOps F] [Cert.KernelIdeal.Facts]

/-- The data block rectified (max with 0) and read as a 512 x 2048 matrix. -/
def xrect (v0 : Vec F S1x512x2048 .f32) : FVec F S512x2048 .bf16 :=
  truncf .bf16 (maximumf (shapeCast S512x2048 v0 shapeCasts_S1x512x2048_S512x2048)
    (broadcast S512x2048 (Scalar.ofBits .f32 0x00000000#32))) bitsLt_bf16_f32

/-- The product D C (512 x 2048). -/
def prodDC (D : FVec F S512x64 .f32) (C : FVec F S64x2048 .f32) : FVec F S512x2048 .f32 :=
  matmul dot_S512x64_S64x2048_S512x2048_1_0_0_1_n_n none (truncf .bf16 D bitsLt_bf16_f32) (truncf .bf16 C bitsLt_bf16_f32)
    (constant S512x2048 .f32 0x00000000#32)

/-- One update of the right factor: C * (D^T X / (D^T (D C) + eps)). -/
def stepC (xc : FVec F S512x2048 .bf16) (D : FVec F S512x64 .f32) (C : FVec F S64x2048 .f32) : FVec F S64x2048 .f32 :=
  mulf C (divf
    (matmul dot_S512x64_S512x2048_S64x2048_0_0_1_1_n_n none (truncf .bf16 D bitsLt_bf16_f32) xc (constant S64x2048 .f32 0x00000000#32))
    (addf (matmul dot_S512x64_S512x2048_S64x2048_0_0_1_1_n_n none (truncf .bf16 D bitsLt_bf16_f32)
        (truncf .bf16 (prodDC D C) bitsLt_bf16_f32) (constant S64x2048 .f32 0x00000000#32))
      (broadcast S64x2048 (Scalar.ofBits .f32 0x32ABCC77#32))))

/-- One update of the left factor: D * (X C^T / ((D C) C^T + eps)). -/
def stepD (xc : FVec F S512x2048 .bf16) (D : FVec F S512x64 .f32) (C : FVec F S64x2048 .f32) : FVec F S512x64 .f32 :=
  mulf D (divf
    (matmul dot_S512x2048_S64x2048_S512x64_1_1_0_0_n_n none xc (truncf .bf16 C bitsLt_bf16_f32) (constant S512x64 .f32 0x00000000#32))
    (addf (matmul dot_S512x2048_S64x2048_S512x64_1_1_0_0_n_n none (truncf .bf16 (prodDC D C) bitsLt_bf16_f32)
        (truncf .bf16 C bitsLt_bf16_f32) (constant S512x64 .f32 0x00000000#32))
      (broadcast S512x64 (Scalar.ofBits .f32 0x32ABCC77#32))))

variable (xc : FVec F S512x2048 .bf16) (D : FVec F S512x64 .f32) (C : FVec F S64x2048 .f32)

/-- The factors after one to six updates (both factors of an update are computed from the previous pair). -/
def D1 : FVec F S512x64 .f32 := stepD xc D C
def C1 : FVec F S64x2048 .f32 := stepC xc D C
def D2 : FVec F S512x64 .f32 := stepD xc (D1 xc D C) (C1 xc D C)
def C2 : FVec F S64x2048 .f32 := stepC xc (D1 xc D C) (C1 xc D C)
def D3 : FVec F S512x64 .f32 := stepD xc (D2 xc D C) (C2 xc D C)
def C3 : FVec F S64x2048 .f32 := stepC xc (D2 xc D C) (C2 xc D C)
def D4 : FVec F S512x64 .f32 := stepD xc (D3 xc D C) (C3 xc D C)
def C4 : FVec F S64x2048 .f32 := stepC xc (D3 xc D C) (C3 xc D C)
def D5 : FVec F S512x64 .f32 := stepD xc (D4 xc D C) (C4 xc D C)
def C5 : FVec F S64x2048 .f32 := stepC xc (D4 xc D C) (C4 xc D C)
def D6 : FVec F S512x64 .f32 := stepD xc (D5 xc D C) (C5 xc D C)
def C6 : FVec F S64x2048 .f32 := stepC xc (D5 xc D C) (C5 xc D C)

/-- What one grid point stores: the product of the factors after six updates, as a 1 x 512 x 2048 block. -/
def block (v0 : Vec F S1x512x2048 .f32) (D : Vec F S512x64 .f32) (C : Vec F S64x2048 .f32) : FVec F S1x512x2048 .f32 :=
  shapeCast S1x512x2048 (prodDC (D6 (xrect v0) D C) (C6 (xrect v0) D C)) shapeCasts_S512x2048_S1x512x2048

end Cert.Nmf.K

end
-- ==== Proof.KernelStep.lean ====
/-
  One update of the kernel, read on real matrices: if the arrays hold non-negative real matrices X, D, C, then the updated
  arrays hold the real updates of NmfReal; and the stored block holds the real computation `spec`.
  Each contraction into the zero accumulator is a finite sum of products over the contracted axis; on arrays that hold real
  matrices that sum is the real sum.  The denominators are sums of products of non-negative reals plus eps > 0, so each
  quotient is the quotient of two reals by a positive divisor.
-/
import proofs.«108616_j8220567404862_1_alg».proof.Proof.KernelDefs
import proofs.«108616_j8220567404862_1_alg».proof.Proof.Gen.KernelIdeal
import proofs.«108616_j8220567404862_1_alg».proof.Proof.NmfReal
import Idealize.ShloMosaic.PureOps.Ideal.Laws
import Idealize.ShloMosaic.Lib.ValueIdx
import Idealize.ShloMosaic.Lib.Pipeline.Value

noncomputable section

namespace Cert.Nmf.K

open Idealize.ShloMosaic Idealize.ShloMosaic.ValueIdx Cert.KernelIdeal Cert.KernelIdeal.Gen Cert.Nmf

/-! ### The three contractions at an index -/

/-- D^T-type contraction: both operands contract their row axis. Operand coordinates. -/
theorem lhs_t_0 (i : S64x2048.Idx) (q : dot_S512x64_S512x2048_S64x2048_0_0_1_1_n_n.contr.Idx) :
    (dot_S512x64_S512x2048_S64x2048_0_0_1_1_n_n.lhsIdx i q 0).val = (q ⟨0, by decide⟩).val :=
  dot_S512x64_S512x2048_S64x2048_0_0_1_1_n_n.lhsIdx_val_of_single rfl i q
theorem lhs_t_1 (i : S64x2048.Idx) (q : dot_S512x64_S512x2048_S64x2048_0_0_1_1_n_n.contr.Idx) :
    (dot_S512x64_S512x2048_S64x2048_0_0_1_1_n_n.lhsIdx i q 1).val = (i 0).val := by
  unfold DotDims.lhsIdx
  rw [dif_neg (show ¬(1 : Fin S512x64.rank) ∈ dot_S512x64_S512x2048_S64x2048_0_0_1_1_n_n.lhsBatch by decide), dif_pos (show (1 : Fin S512x64.rank) ∈ dot_S512x64_S512x2048_S64x2048_0_0_1_1_n_n.lhsNonContracting by decide)]
  rfl
theorem rhs_t_0 (i : S64x2048.Idx) (q : dot_S512x64_S512x2048_S64x2048_0_0_1_1_n_n.contr.Idx) :
    (dot_S512x64_S512x2048_S64x2048_0_0_1_1_n_n.rhsIdx i q 0).val = (q ⟨0, by decide⟩).val :=
  dot_S512x64_S512x2048_S64x2048_0_0_1_1_n_n.rhsIdx_val_of_single rfl i q
theorem rhs_t_1 (i : S64x2048.Idx) (q : dot_S512x64_S512x2048_S64x2048_0_0_1_1_n_n.contr.Idx) :
    (dot_S512x64_S512x2048_S64x2048_0_0_1_1_n_n.rhsIdx i q 1).val = (i 1).val := by
  unfold DotDims.rhsIdx
  rw [dif_neg (show ¬(1 : Fin S512x2048.rank) ∈ dot_S512x64_S512x2048_S64x2048_0_0_1_1_n_n.rhsBatch by decide), dif_pos (show (1 : Fin S512x2048.rank) ∈ dot_S512x64_S512x2048_S64x2048_0_0_1_1_n_n.rhsNonContracting by decide)]
  rfl

/-- (L^T R)(r, n) = sum over d of L(d, r) R(d, n). -/
theorem matmul_t {φ₁ φ₂ : FTy} (l : FVec Ideal S512x64 φ₁) (r : FVec Ideal S512x2048 φ₂) (p : Fin 64) (q : Fin 2048) :
    matmul dot_S512x64_S512x2048_S64x2048_0_0_1_1_n_n none l r (constant S64x2048 .f32 0x00000000#32) (ix2 p q)
      = ∑ k : Fin 512, l (ix2 k p) * r (ix2 k q) := by
  refine (Ideal.matmul_constant_zero_apply dot_S512x64_S512x2048_S64x2048_0_0_1_1_n_n none l r (ix2 p q)).trans ?_
  rw [← Equiv.sum_comp (contrEquiv1 dot_S512x64_S512x2048_S64x2048_0_0_1_1_n_n 512 rfl rfl).symm]
  refine Finset.sum_congr rfl fun k _ => ?_
  have hk := contrEquiv1_symm_val dot_S512x64_S512x2048_S64x2048_0_0_1_1_n_n 512 rfl rfl k
  have el : dot_S512x64_S512x2048_S64x2048_0_0_1_1_n_n.lhsIdx (ix2 p q) ((contrEquiv1 dot_S512x64_S512x2048_S64x2048_0_0_1_1_n_n 512 rfl rfl).symm k) = ix2 k p := funext fun a => Fin.ext (by
    match a with
    | ⟨0, _⟩ => exact (lhs_t_0 _ _).trans hk
    | ⟨1, _⟩ => exact lhs_t_1 _ _)
  have er : dot_S512x64_S512x2048_S64x2048_0_0_1_1_n_n.rhsIdx (ix2 p q) ((contrEquiv1 dot_S512x64_S512x2048_S64x2048_0_0_1_1_n_n 512 rfl rfl).symm k) = ix2 k q := funext fun a => Fin.ext (by
    match a with
    | ⟨0, _⟩ => exact (rhs_t_0 _ _).trans hk
    | ⟨1, _⟩ => exact rhs_t_1 _ _)
  rw [el, er]

/-- Plain product: the left operand contracts its column axis, the right its row axis. -/
theorem lhs_p_0 (i : S512x2048.Idx) (q : dot_S512x64_S64x2048_S512x2048_1_0_0_1_n_n.contr.Idx) :
    (dot_S512x64_S64x2048_S512x2048_1_0_0_1_n_n.lhsIdx i q 0).val = (i 0).val := by
  unfold DotDims.lhsIdx
  rw [dif_neg (show ¬(0 : Fin S512x64.rank) ∈ dot_S512x64_S64x2048_S512x2048_1_0_0_1_n_n.lhsBatch by decide), dif_pos (show (0 : Fin S512x64.rank) ∈ dot_S512x64_S64x2048_S512x2048_1_0_0_1_n_n.lhsNonContracting by decide)]
  rfl
theorem lhs_p_1 (i : S512x2048.Idx) (q : dot_S512x64_S64x2048_S512x2048_1_0_0_1_n_n.contr.Idx) :
    (dot_S512x64_S64x2048_S512x2048_1_0_0_1_n_n.lhsIdx i q 1).val = (q ⟨0, by decide⟩).val :=
  dot_S512x64_S64x2048_S512x2048_1_0_0_1_n_n.lhsIdx_val_of_single rfl i q
theorem rhs_p_0 (i : S512x2048.Idx) (q : dot_S512x64_S64x2048_S512x2048_1_0_0_1_n_n.contr.Idx) :
    (dot_S512x64_S64x2048_S512x2048_1_0_0_1_n_n.rhsIdx i q 0).val = (q ⟨0, by decide⟩).val :=
  dot_S512x64_S64x2048_S512x2048_1_0_0_1_n_n.rhsIdx_val_of_single rfl i q
theorem rhs_p_1 (i : S512x2048.Idx) (q : dot_S512x64_S64x2048_S512x2048_1_0_0_1_n_n.contr.Idx) :
    (dot_S512x64_S64x2048_S512x2048_1_0_0_1_n_n.rhsIdx i q 1).val = (i 1).val := by
  unfold DotDims.rhsIdx
  rw [dif_neg (show ¬(1 : Fin S64x2048.rank) ∈ dot_S512x64_S64x2048_S512x2048_1_0_0_1_n_n.rhsBatch by decide), dif_pos (show (1 : Fin S64x2048.rank) ∈ dot_S512x64_S64x2048_S512x2048_1_0_0_1_n_n.rhsNonContracting by decide)]
  rfl

/-- (L R)(d, n) = sum over s of L(d, s) R(s, n). -/
theorem matmul_p {φ₁ φ₂ : FTy} (l : FVec Ideal S512x64 φ₁) (r : FVec Ideal S64x2048 φ₂) (p : Fin 512) (q : Fin 2048) :
    matmul dot_S512x64_S64x2048_S512x2048_1_0_0_1_n_n none l r (constant S512x2048 .f32 0x00000000#32) (ix2 p q)
      = ∑ k : Fin 64, l (ix2 p k) * r (ix2 k q) := by
  refine (Ideal.matmul_constant_zero_apply dot_S512x64_S64x2048_S512x2048_1_0_0_1_n_n none l r (ix2 p q)).trans ?_
  rw [← Equiv.sum_comp (contrEquiv1 dot_S512x64_S64x2048_S512x2048_1_0_0_1_n_n 64 rfl rfl).symm]
  refine Finset.sum_congr rfl fun k _ => ?_
  have hk := contrEquiv1_symm_val dot_S512x64_S64x2048_S512x2048_1_0_0_1_n_n 64 rfl rfl k
  have el : dot_S512x64_S64x2048_S512x2048_1_0_0_1_n_n.lhsIdx (ix2 p q) ((contrEquiv1 dot_S512x64_S64x2048_S512x2048_1_0_0_1_n_n 64 rfl rfl).symm k) = ix2 p k := funext fun a => Fin.ext (by
    match a with
    | ⟨0, _⟩ => exact lhs_p_0 _ _
    | ⟨1, _⟩ => exact (lhs_p_1 _ _).trans hk)
  have er : dot_S512x64_S64x2048_S512x2048_1_0_0_1_n_n.rhsIdx (ix2 p q) ((contrEquiv1 dot_S512x64_S64x2048_S512x2048_1_0_0_1_n_n 64 rfl rfl).symm k) = ix2 k q := funext fun a => Fin.ext (by
    match a with
    | ⟨0, _⟩ => exact (rhs_p_0 _ _).trans hk
    | ⟨1, _⟩ => exact rhs_p_1 _ _)
  rw [el, er]

/-- C^T-type contraction: both operands contract their column axis. -/
theorem lhs_c_0 (i : S512x64.Idx) (q : dot_S512x2048_S64x2048_S512x64_1_1_0_0_n_n.contr.Idx) :
    (dot_S512x2048_S64x2048_S512x64_1_1_0_0_n_n.lhsIdx i q 0).val = (i 0).val := by
  unfold DotDims.lhsIdx
  rw [dif_neg (show ¬(0 : Fin S512x2048.rank) ∈ dot_S512x2048_S64x2048_S512x64_1_1_0_0_n_n.lhsBatch by decide), dif_pos (show (0 : Fin S512x2048.rank) ∈ dot_S512x2048_S64x2048_S512x64_1_1_0_0_n_n.lhsNonContracting by decide)]
  rfl
theorem lhs_c_1 (i : S512x64.Idx) (q : dot_S512x2048_S64x2048_S512x64_1_1_0_0_n_n.contr.Idx) :
    (dot_S512x2048_S64x2048_S512x64_1_1_0_0_n_n.lhsIdx i q 1).val = (q ⟨0, by decide⟩).val :=
  dot_S512x2048_S64x2048_S512x64_1_1_0_0_n_n.lhsIdx_val_of_single rfl i q
theorem rhs_c_0 (i : S512x64.Idx) (q : dot_S512x2048_S64x2048_S512x64_1_1_0_0_n_n.contr.Idx) :
    (dot_S512x2048_S64x2048_S512x64_1_1_0_0_n_n.rhsIdx i q 0).val = (i 1).val := by
  unfold DotDims.rhsIdx
  rw [dif_neg (show ¬(0 : Fin S64x2048.rank) ∈ dot_S512x2048_S64x2048_S512x64_1_1_0_0_n_n.rhsBatch by decide), dif_pos (show (0 : Fin S64x2048.rank) ∈ dot_S512x2048_S64x2048_S512x64_1_1_0_0_n_n.rhsNonContracting by decide)]
  rfl
theorem rhs_c_1 (i : S512x64.Idx) (q : dot_S512x2048_S64x2048_S512x64_1_1_0_0_n_n.contr.Idx) :
    (dot_S512x2048_S64x2048_S512x64_1_1_0_0_n_n.rhsIdx i q 1).val = (q ⟨0, by decide⟩).val :=
  dot_S512x2048_S64x2048_S512x64_1_1_0_0_n_n.rhsIdx_val_of_single rfl i q

/-- (L R^T)(d, r) = sum over n of L(d, n) R(r, n). -/
theorem matmul_c {φ₁ φ₂ : FTy} (l : FVec Ideal S512x2048 φ₁) (r : FVec Ideal S64x2048 φ₂) (p : Fin 512) (q : Fin 64) :
    matmul dot_S512x2048_S64x2048_S512x64_1_1_0_0_n_n none l r (constant S512x64 .f32 0x00000000#32) (ix2 p q)
      = ∑ k : Fin 2048, l (ix2 p k) * r (ix2 q k) := by
  refine (Ideal.matmul_constant_zero_apply dot_S512x2048_S64x2048_S512x64_1_1_0_0_n_n none l r (ix2 p q)).trans ?_
  rw [← Equiv.sum_comp (contrEquiv1 dot_S512x2048_S64x2048_S512x64_1_1_0_0_n_n 2048 rfl rfl).symm]
  refine Finset.sum_congr rfl fun k _ => ?_
  have hk := contrEquiv1_symm_val dot_S512x2048_S64x2048_S512x64_1_1_0_0_n_n 2048 rfl rfl k
  have el : dot_S512x2048_S64x2048_S512x64_1_1_0_0_n_n.lhsIdx (ix2 p q) ((contrEquiv1 dot_S512x2048_S64x2048_S512x64_1_1_0_0_n_n 2048 rfl rfl).symm k) = ix2 p k := funext fun a => Fin.ext (by
    match a with
    | ⟨0, _⟩ => exact lhs_c_0 _ _
    | ⟨1, _⟩ => exact (lhs_c_1 _ _).trans hk)
  have er : dot_S512x2048_S64x2048_S512x64_1_1_0_0_n_n.rhsIdx (ix2 p q) ((contrEquiv1 dot_S512x2048_S64x2048_S512x64_1_1_0_0_n_n 2048 rfl rfl).symm k) = ix2 q k := funext fun a => Fin.ext (by
    match a with
    | ⟨0, _⟩ => exact rhs_c_0 _ _
    | ⟨1, _⟩ => exact (rhs_c_1 _ _).trans hk)
  rw [el, er]

/-! ### One update on arrays that hold real matrices -/

/-- The product D C on arrays holding real matrices holds the real product. -/
theorem prodDC_rep {D : FVec Ideal S512x64 .f32} {C : FVec Ideal S64x2048 .f32} {Dm : MD} {Cm : MC}
    (hD : Rep2 D Dm) (hC : Rep2 C Cm) : Rep2 (prodDC (F := Ideal) D C) (prod Dm Cm) := by
  intro p q
  unfold prodDC
  rw [matmul_p]
  unfold prod
  rw [coe_sum]
  exact Finset.sum_congr rfl fun k _ => by
    show D (ix2 p k) * C (ix2 k q) = _
    rw [hD p k, hC k q, EReal.coe_mul]

/-- The update of the right factor: numerator and denominator are real sums, the denominator positive. -/
theorem stepC_rep {xc : FVec Ideal S512x2048 .bf16} {D : FVec Ideal S512x64 .f32} {C : FVec Ideal S64x2048 .f32}
    {X : MX} {Dm : MD} {Cm : MC} (hx : Rep2 xc X) (hD : Rep2 D Dm) (hC : Rep2 C Cm) (hD0 : Nonneg2 Dm) (hC0 : Nonneg2 Cm) :
    Rep2 (stepC (F := Ideal) xc D C) (Cert.Nmf.stepC X Dm Cm) := by
  intro r n
  have hP := prodDC_rep hD hC
  have h1 : matmul dot_S512x64_S512x2048_S64x2048_0_0_1_1_n_n none (truncf .bf16 D bitsLt_bf16_f32) xc (constant S64x2048 .f32 0x00000000#32) (ix2 r n)
      = ((∑ d, Dm d r * X d n : ℝ) : EReal) := by
    rw [matmul_t, coe_sum]
    exact Finset.sum_congr rfl fun k _ => by
      show D (ix2 k r) * xc (ix2 k n) = _
      rw [hD k r, hx k n, EReal.coe_mul]
  have h2 : matmul dot_S512x64_S512x2048_S64x2048_0_0_1_1_n_n none (truncf .bf16 D bitsLt_bf16_f32)
        (truncf .bf16 (prodDC D C) bitsLt_bf16_f32) (constant S64x2048 .f32 0x00000000#32) (ix2 r n)
      = ((∑ d, Dm d r * prod Dm Cm d n : ℝ) : EReal) := by
    rw [matmul_t, coe_sum]
    exact Finset.sum_congr rfl fun k _ => by
      show D (ix2 k r) * prodDC D C (ix2 k n) = _
      rw [hD k r, hP k n, EReal.coe_mul]
  unfold stepC
  rw [mulf_apply, divf_apply, addf_apply, h1, h2, broadcast_apply,
    show (Scalar.ofBits .f32 0x32ABCC77#32 : Ideal .f32) = ((eps : ℝ) : EReal) from eps_bits,
    ← EReal.coe_add, div_coe_coe _ _ (denC_pos hD0 hC0 r n).ne', hC r n, ← EReal.coe_mul]
  rfl

/-- The update of the left factor. -/
theorem stepD_rep {xc : FVec Ideal S512x2048 .bf16} {D : FVec Ideal S512x64 .f32} {C : FVec Ideal S64x2048 .f32}
    {X : MX} {Dm : MD} {Cm : MC} (hx : Rep2 xc X) (hD : Rep2 D Dm) (hC : Rep2 C Cm) (hD0 : Nonneg2 Dm) (hC0 : Nonneg2 Cm) :
    Rep2 (stepD (F := Ideal) xc D C) (Cert.Nmf.stepD X Dm Cm) := by
  intro d r
  have hP := prodDC_rep hD hC
  have h1 : matmul dot_S512x2048_S64x2048_S512x64_1_1_0_0_n_n none xc (truncf .bf16 C bitsLt_bf16_f32) (constant S512x64 .f32 0x00000000#32) (ix2 d r)
      = ((∑ n, X d n * Cm r n : ℝ) : EReal) := by
    rw [matmul_c, coe_sum]
    exact Finset.sum_congr rfl fun k _ => by
      show xc (ix2 d k) * C (ix2 r k) = _
      rw [hx d k, hC r k, EReal.coe_mul]
  have h2 : matmul dot_S512x2048_S64x2048_S512x64_1_1_0_0_n_n none (truncf .bf16 (prodDC D C) bitsLt_bf16_f32)
        (truncf .bf16 C bitsLt_bf16_f32) (constant S512x64 .f32 0x00000000#32) (ix2 d r)
      = ((∑ n, prod Dm Cm d n * Cm r n : ℝ) : EReal) := by
    rw [matmul_c, coe_sum]
    exact Finset.sum_congr rfl fun k _ => by
      show prodDC D C (ix2 d k) * C (ix2 r k) = _
      rw [hP d k, hC r k, EReal.coe_mul]
  unfold stepD
  rw [mulf_apply, divf_apply, addf_apply, h1, h2, broadcast_apply,
    show (Scalar.ofBits .f32 0x32ABCC77#32 : Ideal .f32) = ((eps : ℝ) : EReal) from eps_bits,
    ← EReal.coe_add, div_coe_coe _ _ (denD_pos hD0 hC0 d r).ne', hD d r, ← EReal.coe_mul]
  rfl

/-- Dropping the leading unit axis of a slab: entry (p, q) of the matrix is entry (0, p, q) of the slab. -/
theorem drop_unit (v0 : Vec Ideal S1x512x2048 .f32) (p : Fin 512) (q : Fin 2048) :
    shapeCast S512x2048 v0 shapeCasts_S1x512x2048_S512x2048 (ix2 p q) = v0 (ix3 (0 : Fin 1) p q) :=
  (shapeCast_dropUnit_apply ![512, 2048] v0 shapeCasts_S1x512x2048_S512x2048 (ix2 p q)).trans
    (congrArg v0 (funext fun a => match a with
      | ⟨0, _⟩ => rfl
      | ⟨1, _⟩ => rfl
      | ⟨2, _⟩ => rfl))

/-- Adding a leading unit axis to a matrix: entry (0, p, q) of the block is entry (p, q) of the matrix. -/
theorem add_unit (w : FVec Ideal S512x2048 .f32) (p : Fin 512) (q : Fin 2048) :
    shapeCast S1x512x2048 w shapeCasts_S512x2048_S1x512x2048 (ix3 (0 : Fin 1) p q) = w (ix2 p q) :=
  (shapeCast_addUnit_apply ![512, 2048] w shapeCasts_S512x2048_S1x512x2048 (ix3 (0 : Fin 1) p q)).trans
    (congrArg w (funext fun a => match a with
      | ⟨0, _⟩ => rfl
      | ⟨1, _⟩ => rfl))

/-- The rectified slab holds the rectified real matrix. -/
theorem xrect_rep {v0 : Vec Ideal S1x512x2048 .f32} {X : MX}
    (hv : ∀ p q, v0 (ix3 (0 : Fin 1) p q) = ((X p q : ℝ) : EReal)) : Rep2 (xrect (F := Ideal) v0) (relu X) := by
  intro p q
  show max (shapeCast S512x2048 v0 shapeCasts_S1x512x2048_S512x2048 (ix2 p q)) (Ideal.ofBits .f32 0x00000000#32) = _
  rw [zero_bits, drop_unit, hv p q]
  exact (EReal.coe_strictMono.monotone.map_max).symm

/-- The stored block holds `spec` of the slab's real matrix and the two factors. -/
theorem block_rep (v0 : Vec Ideal S1x512x2048 .f32) (D : Vec Ideal S512x64 .f32) (C : Vec Ideal S64x2048 .f32)
    (X : MX) (Dm : MD) (Cm : MC) (hv : ∀ p q, v0 (ix3 (0 : Fin 1) p q) = ((X p q : ℝ) : EReal))
    (hD : Rep2 D Dm) (hC : Rep2 C Cm) (hD0 : Nonneg2 Dm) (hC0 : Nonneg2 Cm) (p : Fin 512) (q : Fin 2048) :
    block (F := Ideal) v0 D C (ix3 (0 : Fin 1) p q) = ((spec X Dm Cm p q : ℝ) : EReal) := by
  have hx := xrect_rep hv
  have hX0 := relu_nonneg X
  have n1 := iter_nonneg hX0 hD0 hC0 1
  have n2 := iter_nonneg hX0 hD0 hC0 2
  have n3 := iter_nonneg hX0 hD0 hC0 3
  have n4 := iter_nonneg hX0 hD0 hC0 4
  have n5 := iter_nonneg hX0 hD0 hC0 5
  have d1 : Rep2 (D1 (xrect v0) D C) (iter (relu X) 1 (Dm, Cm)).1 := stepD_rep hx hD hC hD0 hC0
  have c1 : Rep2 (C1 (xrect v0) D C) (iter (relu X) 1 (Dm, Cm)).2 := stepC_rep hx hD hC hD0 hC0
  have d2 : Rep2 (D2 (xrect v0) D C) (iter (relu X) 2 (Dm, Cm)).1 := stepD_rep hx d1 c1 n1.1 n1.2
  have c2 : Rep2 (C2 (xrect v0) D C) (iter (relu X) 2 (Dm, Cm)).2 := stepC_rep hx d1 c1 n1.1 n1.2
  have d3 : Rep2 (D3 (xrect v0) D C) (iter (relu X) 3 (Dm, Cm)).1 := stepD_rep hx d2 c2 n2.1 n2.2
  have c3 : Rep2 (C3 (xrect v0) D C) (iter (relu X) 3 (Dm, Cm)).2 := stepC_rep hx d2 c2 n2.1 n2.2
  have d4 : Rep2 (D4 (xrect v0) D C) (iter (relu X) 4 (Dm, Cm)).1 := stepD_rep hx d3 c3 n3.1 n3.2
  have c4 : Rep2 (C4 (xrect v0) D C) (iter (relu X) 4 (Dm, Cm)).2 := stepC_rep hx d3 c3 n3.1 n3.2
  have d5 : Rep2 (D5 (xrect v0) D C) (iter (relu X) 5 (Dm, Cm)).1 := stepD_rep hx d4 c4 n4.1 n4.2
  have c5 : Rep2 (C5 (xrect v0) D C) (iter (relu X) 5 (Dm, Cm)).2 := stepC_rep hx d4 c4 n4.1 n4.2
  have d6 : Rep2 (D6 (xrect v0) D C) (iter (relu X) 6 (Dm, Cm)).1 := stepD_rep hx d5 c5 n5.1 n5.2
  have c6 : Rep2 (C6 (xrect v0) D C) (iter (relu X) 6 (Dm, Cm)).2 := stepC_rep hx d5 c5 n5.1 n5.2
  have hP := prodDC_rep d6 c6
  show shapeCast S1x512x2048 (prodDC (D6 (xrect v0) D C) (C6 (xrect v0) D C)) shapeCasts_S512x2048_S1x512x2048 (ix3 (0 : Fin 1) p q) = _
  rw [add_unit]
  exact hP p q

end Cert.Nmf.K

end
-- ==== Proof.KernelBody.lean ====
/-
  The stored block of the idealized kernel, as the generated frame names it, IS the sixfold update of KernelDefs:
  both are the same nest of operations, so the equation holds by unfolding.
-/
import proofs.«108616_j8220567404862_1_alg».proof.Proof.KernelDefs
import proofs.«108616_j8220567404862_1_alg».proof.Proof.Gen.KernelIdeal.Frame

set_option maxRecDepth 8192

noncomputable section

namespace Cert.Nmf.K

open Idealize.ShloMosaic Cert.KernelIdeal Cert.KernelIdeal.Gen

variable {F : FTy → Type} [FloatOps F] [Cert.KernelIdeal.Facts]

theorem out_eq (x0 : Vec F S1x512x2048 .f32) (x1 : Vec F S512x64 .f32) (x2 : Vec F S64x2048 .f32) :
    out0_3 x0 x1 x2 = View.canon [⟨r0_0, block (View.ld x0 r0_0) (View.ld x1 r0_1) (View.ld x2 r0_2)⟩] := rfl

end Cert.Nmf.K

end
-- ==== Proof.KernelArray.lean ====
/-
  From blocks to the array.  Grid point t of the 32 stages block t of the data array (one 512 x 2048 slab) and the two
  factors whole, and writes block t of the result; so the result array, at index (t, p, q), is the stored block of
  KernelDefs computed from slab t, read at (0, p, q).
-/
import proofs.«108616_j8220567404862_1_alg».proof.Proof.KernelBody
import proofs.«108616_j8220567404862_1_alg».proof.Proof.Gen.KernelIdeal.Value
import Idealize.ShloMosaic.Lib.Pipeline.Value
import Idealize.ShloMosaic.Lib.ValueIdx

noncomputable section

namespace Cert.Nmf.K

open Idealize.ShloMosaic Idealize.ShloMosaic.TcCoe Idealize.SL.Sem Cert.KernelIdeal Cert.KernelIdeal.Gen

variable {F : FTy → Type} [FloatOps F]

/-- Slab `t` of the data array, as a 1 x 512 x 2048 block. -/
def slab (x : Vec F S32x512x2048 .f32) (t : Fin 32) : Vec F S1x512x2048 .f32 :=
  fun y => x (ValueIdx.ix3 t (y 1 : Fin 512) (y 2 : Fin 2048))

/-- The result array as one function of the argument arrays. -/
def array (x : Vec F S32x512x2048 .f32) (D : Vec F S512x64 .f32) (C : Vec F S64x2048 .f32) : Vec F S32x512x2048 .f32 :=
  fun i => block (slab x (i 0 : Fin 32)) D C (ValueIdx.ix3 (0 : Fin 1) (i 1 : Fin 512) (i 2 : Fin 2048))

/-- The zero offset of a rank-3 block, and of a rank-2 block. -/
theorem off3_zero : (![0, 0, 0] : Fin 3 → Nat) = fun _ => 0 := funext fun a => by fin_cases a <;> rfl
theorem off2_zero : (![0, 0] : Fin 2 → Nat) = fun _ => 0 := funext fun a => by fin_cases a <;> rfl

/-- The block indices at grid point `t`, decided over the 32 points: the data window and the result window sit at
    block (t, 0, 0), the two factor windows at block (0, 0). -/
theorem index_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The result array read at an index whose slab is `t` and whose place inside the slab is `j`. -/
theorem array_apply (x : Vec F S32x512x2048 .f32) (D : Vec F S512x64 .f32) (C : Vec F S64x2048 .f32)
    (t : Fin 32) (i : S32x512x2048.Idx) (j : S1x512x2048.Idx)
    (h0 : (i 0).val = t.val) (h1 : (i 1).val = (j 1).val) (h2 : (i 2).val = (j 2).val) :
    array x D C i = block (slab x t) D C j := by
  have e0 : (i 0 : Fin 32) = t := Fin.ext h0
  have ej : (ValueIdx.ix3 (0 : Fin 1) (i 1 : Fin 512) (i 2 : Fin 2048) : S1x512x2048.Idx) = j := by
    funext a
    apply Fin.ext
    match a with
    | ⟨0, _⟩ => show (0 : Nat) = (j 0).val; have hj : (j 0).val < 1 := (j 0).isLt; omega
    | ⟨1, _⟩ => exact h1
    | ⟨2, _⟩ => exact h2
  show block (slab x (i 0 : Fin 32)) D C (ValueIdx.ix3 (0 : Fin 1) (i 1 : Fin 512) (i 2 : Fin 2048)) = _
  exact (congrArg (fun s => block (slab x s) D C (ValueIdx.ix3 (0 : Fin 1) (i 1 : Fin 512) (i 2 : Fin 2048))) e0).trans
    (congrArg (block (slab x t) D C) ej)

variable (m : (ℓ : Loc nD τ sig) → Buf (Elt F) ℓ) (ρ : Dev nD → PrngReg)

/-- The data window's block at point `t` is slab `t` of the data array. -/
theorem iblk_data (c : Dev nD) (t : Fin cfg0.N) (s : Fin 32) (hs : s.val = t.val) :
    (iblk m c 0 t : Vec F S1x512x2048 .f32) = slab (m ((c : Thread nD τ).loc main_arg0)) s := by
  obtain ⟨e0, e1, e2, -⟩ := index_facts t
  funext y
  show V m c main_arg0 (((cfg0.win 0).blk t).view.emb y) = m ((c : Thread nD τ).loc main_arg0) (ValueIdx.ix3 s (y 1 : Fin 512) (y 2 : Fin 2048))
  show m ((c : Thread nD τ).loc main_arg0) (((cfg0.win 0).blk t).view.emb y) = _
  congr 1
  funext a; apply Fin.ext
  match a with
  | ⟨0, _⟩ => show win0_0.index t (0 : Fin 3) * 1 + 1 * (y 0).val = s.val; have hy : (y 0).val < 1 := (y 0).isLt; omega
  | ⟨1, _⟩ => show win0_0.index t (1 : Fin 3) * 512 + 1 * (y 1).val = (y 1).val; omega
  | ⟨2, _⟩ => show win0_0.index t (2 : Fin 3) * 2048 + 1 * (y 2).val = (y 2).val; omega

/-- The left factor's window at any point is the whole left factor. -/
theorem iblk_left (c : Dev nD) (t : Fin cfg0.N) :
    (iblk m c 1 t : Vec F S512x64 .f32) = m ((c : Thread nD τ).loc main_arg1) := by
  obtain ⟨-, -, -, e0, e1, -⟩ := index_facts t
  funext y
  show m ((c : Thread nD τ).loc main_arg1) (((cfg0.win 1).blk t).view.emb y) = m ((c : Thread nD τ).loc main_arg1) y
  congr 1
  funext a; apply Fin.ext
  match a with
  | ⟨0, _⟩ => show win0_1.index t (0 : Fin 2) * 512 + 1 * (y 0).val = (y 0).val; omega
  | ⟨1, _⟩ => show win0_1.index t (1 : Fin 2) * 64 + 1 * (y 1).val = (y 1).val; omega

/-- The right factor's window at any point is the whole right factor. -/
theorem iblk_right (c : Dev nD) (t : Fin cfg0.N) :
    (iblk m c 2 t : Vec F S64x2048 .f32) = m ((c : Thread nD τ).loc main_arg2) := by
  obtain ⟨-, -, -, -, -, e0, e1, -⟩ := index_facts t
  funext y
  show m ((c : Thread nD τ).loc main_arg2) (((cfg0.win 2).blk t).view.emb y) = m ((c : Thread nD τ).loc main_arg2) y
  congr 1
  funext a; apply Fin.ext
  match a with
  | ⟨0, _⟩ => show win0_2.index t (0 : Fin 2) * 64 + 1 * (y 0).val = (y 0).val; omega
  | ⟨1, _⟩ => show win0_2.index t (1 : Fin 2) * 2048 + 1 * (y 1).val = (y 1).val; omega

/-- What point `t` writes back is block `t` of the result array of the argument arrays. -/
theorem flushed_eq (c : Dev nD) (t : Fin cfg0.N) :
    (dats m 0 c).flushed 3 t = ((cfg0.win 3).blk t).view.read (Elt F)
      (array (m ((c : Thread nD τ).loc main_arg0)) (m ((c : Thread nD τ).loc main_arg1)) (m ((c : Thread nD τ).loc main_arg2))) := by
  rw [Value.flushed3, out_eq, View.canon_unit_zero off3_zero]
  simp only [View.ld_unit_zero (S := S1x512x2048) off3_zero, View.ld_unit_zero (S := S512x64) off2_zero,
    View.ld_unit_zero (S := S64x2048) off2_zero]
  rw [iblk_left m c t, iblk_right m c t, iblk_data m c t ⟨t.val, t.isLt⟩ rfl]
  obtain ⟨-, -, -, -, -, -, -, e0, e1, e2⟩ := index_facts t
  funext j
  show block (slab (m ((c : Thread nD τ).loc main_arg0)) ⟨t.val, t.isLt⟩) (m ((c : Thread nD τ).loc main_arg1)) (m ((c : Thread nD τ).loc main_arg2)) j
    = array (m ((c : Thread nD τ).loc main_arg0)) (m ((c : Thread nD τ).loc main_arg1)) (m ((c : Thread nD τ).loc main_arg2)) (((cfg0.win 3).blk t).view.emb j)
  refine (array_apply _ _ _ ⟨t.val, t.isLt⟩ _ j ?_ ?_ ?_).symm
  · show win0_3.index t (0 : Fin 3) * 1 + 1 * (j 0).val = t.val; have hj : (j 0).val < 1 := (j 0).isLt; omega
  · show win0_3.index t (1 : Fin 3) * 512 + 1 * (j 1).val = (j 1).val; omega
  · show win0_3.index t (2 : Fin 3) * 2048 + 1 * (j 2).val = (j 2).val; omega

/-- An index of the array is in point `t`'s block iff each coordinate is in the block's range on its axis. -/
theorem mem_blk (t : Fin cfg0.N) (i : S32x512x2048.Idx) :
    i ∈ ((cfg0.win 3).blk t).view.set ↔ ∀ a : Fin 3, win0_3.index t a * S1x512x2048.size a ≤ (i a).val ∧ (i a).val < win0_3.index t a * S1x512x2048.size a + S1x512x2048.size a := by
  show i ∈ ((View.whole main_v0).slice (win0_3.rect t)).set ↔ _
  rw [View.set_slice_whole, Rect.mem_set_unit]
  exact Iff.rfl

/-- Every index of the result array lies in the block of the point named by its first coordinate. -/
theorem cover (i : S32x512x2048.Idx) :
    ∃ t : Fin cfg0.N, (cfg0.win 3).flush t = true ∧ i ∈ ((cfg0.win 3).blk t).view.set := by
  have hi0 : (i 0).val < 32 := (i 0).isLt
  have hi1 : (i 1).val < 512 := (i 1).isLt
  have hi2 : (i 2).val < 2048 := (i 2).isLt
  refine ⟨⟨(i 0).val, hi0⟩, flush0_3 _, ?_⟩
  obtain ⟨-, -, -, -, -, -, -, e0, e1, e2⟩ := index_facts ⟨(i 0).val, hi0⟩
  have e0 : win0_3.index ⟨(i 0).val, hi0⟩ (0 : Fin 3) = (i 0).val := e0
  rw [mem_blk]
  intro a
  match a with
  | ⟨0, _⟩ => show win0_3.index ⟨(i 0).val, hi0⟩ (0 : Fin 3) * 1 ≤ (i 0).val ∧ (i 0).val < win0_3.index ⟨(i 0).val, hi0⟩ (0 : Fin 3) * 1 + 1; rw [e0]; omega
  | ⟨1, _⟩ => show win0_3.index ⟨(i 0).val, hi0⟩ (1 : Fin 3) * 512 ≤ (i 1).val ∧ (i 1).val < win0_3.index ⟨(i 0).val, hi0⟩ (1 : Fin 3) * 512 + 512; rw [e1]; omega
  | ⟨2, _⟩ => show win0_3.index ⟨(i 0).val, hi0⟩ (2 : Fin 3) * 2048 ≤ (i 2).val ∧ (i 2).val < win0_3.index ⟨(i 0).val, hi0⟩ (2 : Fin 3) * 2048 + 2048; rw [e2]; omega

/-- The result array after the run is the result array of the argument arrays. -/
theorem final (c : Dev nD) : (dats m 0 c).arrAt 3 cfg0.N
    = array (m ((c : Thread nD τ).loc main_arg0)) (m ((c : Thread nD τ).loc main_arg1)) (m ((c : Thread nD τ).loc main_arg2)) :=
  (dats m 0 c).arrAt_eq_of_cover 3 _ (fun t _ => flushed_eq m c t) cover

/-- The idealized kernel's run with the result array named. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v0) = array (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.Nmf.K

end
-- ==== Proof.RefDefs.lean ====
/-
  The reference as iterated multiplicative updates of BATCHED factors: the two factors are repeated along a leading batch
  axis of extent 32, the data array is rectified, and one update replaces, batch by batch,
      C by C * (D^T X / ((D^T D) C + eps))      and      D by D * (X C^T / ((D C) C^T + eps)),
  the transposes taken explicitly and every product a batched contraction; six updates, then the batched product D C.
  (Note the grouping (D^T D) C of the first denominator.)  One update and the six iterates, over any float instance.
-/
import proofs.«108616_j8220567404862_1_alg».proof.ReferenceIdeal

noncomputable section

namespace Cert.Nmf.R

open Idealize.ShloMosaic Cert.ReferenceIdeal Cert.ReferenceIdeal.Facts₀ Cert.ReferenceIdeal.Facts

variable {F : FTy → Type} [FloatOps F] [Cert.ReferenceIdeal.Facts]

/-- The data array rectified. -/
def xrect (x : FVec F S32x512x2048 .f32) : FVec F S32x512x2048 .f32 :=
  maximumf x (broadcastInDim S32x512x2048 ![] bcast_S_S32x512x2048 (constant S_ .f32 0x00000000#32))

/-- The factors repeated along the batch axis. -/
def D0 (D : FVec F S512x64 .f32) : FVec F S32x512x64 .f32 := broadcastInDim S32x512x64 ![1, 2] bcast_S512x64_S32x512x64_1_2 D
def C0 (C : FVec F S64x2048 .f32) : FVec F S32x64x2048 .f32 := broadcastInDim S32x64x2048 ![1, 2] bcast_S64x2048_S32x64x2048_1_2 C

/-- The batched transposes D^T (32 x 64 x 512) and C^T (32 x 2048 x 64). -/
def tD (D : FVec F S32x512x64 .f32) : FVec F S32x64x512 .f32 := transpose S32x64x512 [0, 2, 1] D transposes_S32x512x64_S32x64x512_0_2_1
def tC (C : FVec F S32x64x2048 .f32) : FVec F S32x2048x64 .f32 := transpose S32x2048x64 [0, 2, 1] C transposes_S32x64x2048_S32x2048x64_0_2_1

/-- One update of the right factor: C * (D^T X / ((D^T D) C + eps)). -/
def stepC (x : FVec F S32x512x2048 .f32) (D : FVec F S32x512x64 .f32) (C : FVec F S32x64x2048 .f32) : FVec F S32x64x2048 .f32 :=
  mulf C (Host.divf
    (Host.dotGeneral dot_S32x64x512_S32x512x2048_S32x64x2048_2_1_1_2_0_0 none (tD D) x)
    (addf (Host.dotGeneral dot_S32x64x64_S32x64x2048_S32x64x2048_2_1_1_2_0_0 none
        (Host.dotGeneral dot_S32x64x512_S32x512x64_S32x64x64_2_1_1_2_0_0 none (tD D) D) C)
      (broadcastInDim S32x64x2048 ![] bcast_S_S32x64x2048 (constant S_ .f32 0x32ABCC77#32))))

/-- One update of the left factor: D * (X C^T / ((D C) C^T + eps)). -/
def stepD (x : FVec F S32x512x2048 .f32) (D : FVec F S32x512x64 .f32) (C : FVec F S32x64x2048 .f32) : FVec F S32x512x64 .f32 :=
  mulf D (Host.divf
    (Host.dotGeneral dot_S32x512x2048_S32x2048x64_S32x512x64_2_1_1_2_0_0 none x (tC C))
    (addf (Host.dotGeneral dot_S32x512x2048_S32x2048x64_S32x512x64_2_1_1_2_0_0 none
        (Host.dotGeneral dot_S32x512x64_S32x64x2048_S32x512x2048_2_1_1_2_0_0 none D C) (tC C))
      (broadcastInDim S32x512x64 ![] bcast_S_S32x512x64 (constant S_ .f32 0x32ABCC77#32))))

variable (x : FVec F S32x512x2048 .f32) (D : FVec F S32x512x64 .f32) (C : FVec F S32x64x2048 .f32)

/-- The batched factors after one to six updates. -/
def D1 : FVec F S32x512x64 .f32 := stepD x D C
def C1 : FVec F S32x64x2048 .f32 := stepC x D C
def D2 : FVec F S32x512x64 .f32 := stepD x (D1 x D C) (C1 x D C)
def C2 : FVec F S32x64x2048 .f32 := stepC x (D1 x D C) (C1 x D C)
def D3 : FVec F S32x512x64 .f32 := stepD x (D2 x D C) (C2 x D C)
def C3 : FVec F S32x64x2048 .f32 := stepC x (D2 x D C) (C2 x D C)
def D4 : FVec F S32x512x64 .f32 := stepD x (D3 x D C) (C3 x D C)
def C4 : FVec F S32x64x2048 .f32 := stepC x (D3 x D C) (C3 x D C)
def D5 : FVec F S32x512x64 .f32 := stepD x (D4 x D C) (C4 x D C)
def C5 : FVec F S32x64x2048 .f32 := stepC x (D4 x D C) (C4 x D C)
def D6 : FVec F S32x512x64 .f32 := stepD x (D5 x D C) (C5 x D C)
def C6 : FVec F S32x64x2048 .f32 := stepC x (D5 x D C) (C5 x D C)

/-- The reference's result: the batched product of the factors after six updates. -/
def result (x : FVec F S32x512x2048 .f32) (D : FVec F S512x64 .f32) (C : FVec F S64x2048 .f32) : FVec F S32x512x2048 .f32 :=
  Host.dotGeneral dot_S32x512x64_S32x64x2048_S32x512x2048_2_1_1_2_0_0 none
    (D6 (xrect x) (D0 D) (C0 C)) (C6 (xrect x) (D0 D) (C0 C))

end Cert.Nmf.R

end
-- ==== Proof.RefStep.lean ====
/-
  One batched update of the reference, read on real matrices: if the batched arrays hold, batch by batch, non-negative
  real matrices X, D, C, then the updated arrays hold the real updates of NmfReal.  The reference's first denominator is
  grouped (D^T D) C; over the reals that is D^T (D C).
-/
import proofs.«108616_j8220567404862_1_alg».proof.Proof.RefDefs
import proofs.«108616_j8220567404862_1_alg».proof.Proof.NmfReal
import Idealize.ShloMosaic.PureOps.Ideal.Laws
import Idealize.ShloMosaic.Lib.ValueIdx
import Idealize.ShloMosaic.Lib.Pipeline.Value

noncomputable section

namespace Cert.Nmf.R

open Idealize.ShloMosaic Cert.ReferenceIdeal Cert.Nmf

/-! ### A batched matrix product read at an entry

All five contractions of the reference have the same dimension numbers: axis 0 is the batch axis of both operands and
of the result, the left operand's last axis is contracted with the right operand's middle axis.  So the entry
(t, p, n) of the product of l (B x M x K) and r (B x K x N) is the sum over k of l (t, p, k) * r (t, k, n): the operand
indices of the contraction are computed axis by axis, and the contraction's one-axis index set is re-indexed by its
coordinate. -/

section Dot
variable {B M K N : ℕ}

/-- The dimension numbers of a batched matrix product: axis 0 is the batch axis of both operands, the left operand's
    axis 2 is contracted with the right operand's axis 1. -/
abbrev bdot (w : DotDims.WF ⟨3, ![B, M, K]⟩ ⟨3, ![B, K, N]⟩ ⟨3, ![B, M, N]⟩ [2] [1] [1] [2] [0] [0]) :
    DotDims ⟨3, ![B, M, K]⟩ ⟨3, ![B, K, N]⟩ ⟨3, ![B, M, N]⟩ where
  lhsContracting := [2]
  rhsContracting := [1]
  lhsNonContracting := [1]
  rhsNonContracting := [2]
  lhsBatch := [0]
  rhsBatch := [0]
  wf := w

variable (w : DotDims.WF ⟨3, ![B, M, K]⟩ ⟨3, ![B, K, N]⟩ ⟨3, ![B, M, N]⟩ [2] [1] [1] [2] [0] [0])

theorem bdot_lhs0 (j : (⟨3, ![B, M, N]⟩ : Shape).Idx) (q : (bdot w).contr.Idx) : ((bdot w).lhsIdx j q 0).val = (j 0).val := by
  unfold DotDims.lhsIdx
  rw [dif_pos (show (0 : Fin 3) ∈ (bdot w).lhsBatch from (by decide : (0 : Fin 3) ∈ ([0] : List (Fin 3))))]
  rfl
theorem bdot_lhs1 (j : (⟨3, ![B, M, N]⟩ : Shape).Idx) (q : (bdot w).contr.Idx) : ((bdot w).lhsIdx j q 1).val = (j 1).val := by
  unfold DotDims.lhsIdx
  rw [dif_neg (show ¬(1 : Fin 3) ∈ (bdot w).lhsBatch from (by decide : ¬(1 : Fin 3) ∈ ([0] : List (Fin 3)))),
    dif_pos (show (1 : Fin 3) ∈ (bdot w).lhsNonContracting from (by decide : (1 : Fin 3) ∈ ([1] : List (Fin 3))))]
  rfl
theorem bdot_lhs2 (j : (⟨3, ![B, M, N]⟩ : Shape).Idx) (q : (bdot w).contr.Idx) :
    ((bdot w).lhsIdx j q 2).val = (q ⟨0, Nat.one_pos⟩).val :=
  (bdot w).lhsIdx_val_of_single rfl j q
theorem bdot_rhs0 (j : (⟨3, ![B, M, N]⟩ : Shape).Idx) (q : (bdot w).contr.Idx) : ((bdot w).rhsIdx j q 0).val = (j 0).val := by
  unfold DotDims.rhsIdx
  rw [dif_pos (show (0 : Fin 3) ∈ (bdot w).rhsBatch from (by decide : (0 : Fin 3) ∈ ([0] : List (Fin 3))))]
  rfl
theorem bdot_rhs1 (j : (⟨3, ![B, M, N]⟩ : Shape).Idx) (q : (bdot w).contr.Idx) :
    ((bdot w).rhsIdx j q 1).val = (q ⟨0, Nat.one_pos⟩).val :=
  (bdot w).rhsIdx_val_of_single rfl j q
theorem bdot_rhs2 (j : (⟨3, ![B, M, N]⟩ : Shape).Idx) (q : (bdot w).contr.Idx) : ((bdot w).rhsIdx j q 2).val = (j 2).val := by
  unfold DotDims.rhsIdx
  rw [dif_neg (show ¬(2 : Fin 3) ∈ (bdot w).rhsBatch from (by decide : ¬(2 : Fin 3) ∈ ([0] : List (Fin 3)))),
    dif_pos (show (2 : Fin 3) ∈ (bdot w).rhsNonContracting from (by decide : (2 : Fin 3) ∈ ([2] : List (Fin 3))))]
  rfl

/-- A batched product of extended-real arrays, read at an entry: the sum over the contracted axis. -/
theorem bdot_apply {φ₁ φ₂ : FTy} (l : FVec Ideal ⟨3, ![B, M, K]⟩ φ₁) (r : FVec Ideal ⟨3, ![B, K, N]⟩ φ₂)
    (t : Fin B) (p : Fin M) (n : Fin N) :
    Host.dotGeneral (F := Ideal) (bdot w) none l r (ValueIdx.ix3 t p n)
      = ∑ k : Fin K, l (ValueIdx.ix3 t p k) * r (ValueIdx.ix3 t k n) := by
  simp only [Host.dotGeneral]
  rw [Ideal.dotGeneral_apply, ← Equiv.sum_comp (ValueIdx.contrEquiv1 (bdot w) K rfl rfl).symm]
  refine Finset.sum_congr rfl fun k _ => ?_
  have hk := ValueIdx.contrEquiv1_symm_val (bdot w) K rfl rfl k
  have el : (bdot w).lhsIdx (ValueIdx.ix3 t p n) ((ValueIdx.contrEquiv1 (bdot w) K rfl rfl).symm k) = ValueIdx.ix3 t p k :=
    funext fun a => Fin.ext (by
      match a with
      | ⟨0, _⟩ => exact bdot_lhs0 w _ _
      | ⟨1, _⟩ => exact bdot_lhs1 w _ _
      | ⟨2, _⟩ => exact (bdot_lhs2 w _ _).trans hk)
  have er : (bdot w).rhsIdx (ValueIdx.ix3 t p n) ((ValueIdx.contrEquiv1 (bdot w) K rfl rfl).symm k) = ValueIdx.ix3 t k n :=
    funext fun a => Fin.ext (by
      match a with
      | ⟨0, _⟩ => exact bdot_rhs0 w _ _
      | ⟨1, _⟩ => exact (bdot_rhs1 w _ _).trans hk
      | ⟨2, _⟩ => exact bdot_rhs2 w _ _)
  rw [el, er]

end Dot

variable [Cert.ReferenceIdeal.Facts]

/-! ### The reference's five contractions, its transposes and its constants at an entry -/

/-- D^T X at (t, r, n): the sum over d of D^T (t, r, d) * X (t, d, n). -/
theorem dot_DtX (l : FVec Ideal S32x64x512 .f32) (r : FVec Ideal S32x512x2048 .f32) (t : Fin 32) (p : Fin 64) (n : Fin 2048) :
    Host.dotGeneral (F := Ideal) dot_S32x64x512_S32x512x2048_S32x64x2048_2_1_1_2_0_0 none l r (ValueIdx.ix3 t p n)
      = ∑ k : Fin 512, l (ValueIdx.ix3 t p k) * r (ValueIdx.ix3 t k n) :=
  bdot_apply Facts₀.dot_S32x64x512_S32x512x2048_S32x64x2048_2_1_1_2_0_0_wf l r t p n

/-- D^T D at (t, r, s). -/
theorem dot_DtD (l : FVec Ideal S32x64x512 .f32) (r : FVec Ideal S32x512x64 .f32) (t : Fin 32) (p : Fin 64) (n : Fin 64) :
    Host.dotGeneral (F := Ideal) dot_S32x64x512_S32x512x64_S32x64x64_2_1_1_2_0_0 none l r (ValueIdx.ix3 t p n)
      = ∑ k : Fin 512, l (ValueIdx.ix3 t p k) * r (ValueIdx.ix3 t k n) :=
  bdot_apply Facts₀.dot_S32x64x512_S32x512x64_S32x64x64_2_1_1_2_0_0_wf l r t p n

/-- (D^T D) C at (t, r, n). -/
theorem dot_GC (l : FVec Ideal S32x64x64 .f32) (r : FVec Ideal S32x64x2048 .f32) (t : Fin 32) (p : Fin 64) (n : Fin 2048) :
    Host.dotGeneral (F := Ideal) dot_S32x64x64_S32x64x2048_S32x64x2048_2_1_1_2_0_0 none l r (ValueIdx.ix3 t p n)
      = ∑ k : Fin 64, l (ValueIdx.ix3 t p k) * r (ValueIdx.ix3 t k n) :=
  bdot_apply Facts₀.dot_S32x64x64_S32x64x2048_S32x64x2048_2_1_1_2_0_0_wf l r t p n

/-- X C^T, and (D C) C^T, at (t, d, r). -/
theorem dot_XCt (l : FVec Ideal S32x512x2048 .f32) (r : FVec Ideal S32x2048x64 .f32) (t : Fin 32) (p : Fin 512) (n : Fin 64) :
    Host.dotGeneral (F := Ideal) dot_S32x512x2048_S32x2048x64_S32x512x64_2_1_1_2_0_0 none l r (ValueIdx.ix3 t p n)
      = ∑ k : Fin 2048, l (ValueIdx.ix3 t p k) * r (ValueIdx.ix3 t k n) :=
  bdot_apply Facts₀.dot_S32x512x2048_S32x2048x64_S32x512x64_2_1_1_2_0_0_wf l r t p n

/-- D C at (t, d, n). -/
theorem dot_DC (l : FVec Ideal S32x512x64 .f32) (r : FVec Ideal S32x64x2048 .f32) (t : Fin 32) (p : Fin 512) (n : Fin 2048) :
    Host.dotGeneral (F := Ideal) dot_S32x512x64_S32x64x2048_S32x512x2048_2_1_1_2_0_0 none l r (ValueIdx.ix3 t p n)
      = ∑ k : Fin 64, l (ValueIdx.ix3 t p k) * r (ValueIdx.ix3 t k n) :=
  bdot_apply Facts₀.dot_S32x512x64_S32x64x2048_S32x512x2048_2_1_1_2_0_0_wf l r t p n

/-- The batched transpose of D at (t, r, d) is D at (t, d, r). -/
theorem tD_apply (D : FVec Ideal S32x512x64 .f32) (t : Fin 32) (r : Fin 64) (d : Fin 512) :
    tD (F := Ideal) D (ValueIdx.ix3 t r d) = D (ValueIdx.ix3 t d r) := by
  unfold tD
  exact transpose_apply [0, 2, 1] D _ (ValueIdx.ix3 t r d) (ValueIdx.ix3 t d r) (fun b => match b with
    | ⟨0, _⟩ => rfl
    | ⟨1, _⟩ => rfl
    | ⟨2, _⟩ => rfl)

/-- The batched transpose of C at (t, n, r) is C at (t, r, n). -/
theorem tC_apply (C : FVec Ideal S32x64x2048 .f32) (t : Fin 32) (n : Fin 2048) (r : Fin 64) :
    tC (F := Ideal) C (ValueIdx.ix3 t n r) = C (ValueIdx.ix3 t r n) := by
  unfold tC
  exact transpose_apply [0, 2, 1] C _ (ValueIdx.ix3 t n r) (ValueIdx.ix3 t r n) (fun b => match b with
    | ⟨0, _⟩ => rfl
    | ⟨1, _⟩ => rfl
    | ⟨2, _⟩ => rfl)

/-- A scalar constant repeated over an array reads, everywhere, the extended real its word denotes. -/
theorem splat_apply {s : Shape} (h : S_.BroadcastsInDim s (![] : Fin 0 → Fin s.rank)) (b : BitVec FTy.f32.bits) (i : s.Idx) :
    broadcastInDim s ![] h (constant (F := Ideal) S_ .f32 b) i = Ideal.ofBits .f32 b :=
  broadcastInDim_apply _ h (constant (F := Ideal) S_ .f32 b) i ValueIdx.ix0 (fun a => a.elim0)

/-- The host's quotient at an entry is the ideal quotient of the entries. -/
theorem hostDivf_apply {s : Shape} {φ : FTy} (a b : FVec Ideal s φ) (i : s.Idx) : Host.divf a b i = Ideal.div (a i) (b i) := rfl

/-! ### One update -/

theorem stepC_rep (x : FVec Ideal S32x512x2048 .f32) (D : FVec Ideal S32x512x64 .f32) (C : FVec Ideal S32x64x2048 .f32)
    (X : Fin 32 → MX) (Dm : Fin 32 → MD) (Cm : Fin 32 → MC) (hx : Rep3 x X) (hD : Rep3 D Dm) (hC : Rep3 C Cm)
    (hD0 : ∀ t, Nonneg2 (Dm t)) (hC0 : ∀ t, Nonneg2 (Cm t)) :
    Rep3 (stepC (F := Ideal) x D C) (fun t => Cert.Nmf.stepC (X t) (Dm t) (Cm t)) := by
  intro t r n
  -- the numerator D^T X
  have hnum : Host.dotGeneral (F := Ideal) dot_S32x64x512_S32x512x2048_S32x64x2048_2_1_1_2_0_0 none (tD D) x (ValueIdx.ix3 t r n)
      = ((∑ d, Dm t d r * X t d n : ℝ) : EReal) := by
    rw [dot_DtX, coe_sum]
    refine Finset.sum_congr rfl fun d _ => ?_
    rw [tD_apply, hD t d r, hx t d n, EReal.coe_mul]
  -- the Gram matrix D^T D
  have hG : ∀ s : Fin 64, Host.dotGeneral (F := Ideal) dot_S32x64x512_S32x512x64_S32x64x64_2_1_1_2_0_0 none (tD D) D (ValueIdx.ix3 t r s)
      = ((∑ d, Dm t d r * Dm t d s : ℝ) : EReal) := by
    intro s
    rw [dot_DtD, coe_sum]
    refine Finset.sum_congr rfl fun d _ => ?_
    rw [tD_apply, hD t d r, hD t d s, EReal.coe_mul]
  -- (D^T D) C, which over the reals is D^T (D C)
  have hden : Host.dotGeneral (F := Ideal) dot_S32x64x64_S32x64x2048_S32x64x2048_2_1_1_2_0_0 none
        (Host.dotGeneral (F := Ideal) dot_S32x64x512_S32x512x64_S32x64x64_2_1_1_2_0_0 none (tD D) D) C (ValueIdx.ix3 t r n)
      = ((∑ d, Dm t d r * prod (Dm t) (Cm t) d n : ℝ) : EReal) := by
    rw [dot_GC, ← assoc_DtDC, coe_sum]
    refine Finset.sum_congr rfl fun s _ => ?_
    rw [hG s, hC t s n, EReal.coe_mul]
  unfold Cert.Nmf.R.stepC
  rw [ValueIdx.mulf_apply, hostDivf_apply, ValueIdx.addf_apply, hnum, hden, splat_apply, eps_bits, hC t r n, ← EReal.coe_add,
    div_coe_coe _ _ (denC_pos (hD0 t) (hC0 t) r n).ne', ← EReal.coe_mul]
  rfl

theorem stepD_rep (x : FVec Ideal S32x512x2048 .f32) (D : FVec Ideal S32x512x64 .f32) (C : FVec Ideal S32x64x2048 .f32)
    (X : Fin 32 → MX) (Dm : Fin 32 → MD) (Cm : Fin 32 → MC) (hx : Rep3 x X) (hD : Rep3 D Dm) (hC : Rep3 C Cm)
    (hD0 : ∀ t, Nonneg2 (Dm t)) (hC0 : ∀ t, Nonneg2 (Cm t)) :
    Rep3 (stepD (F := Ideal) x D C) (fun t => Cert.Nmf.stepD (X t) (Dm t) (Cm t)) := by
  intro t d r
  -- the numerator X C^T
  have hnum : Host.dotGeneral (F := Ideal) dot_S32x512x2048_S32x2048x64_S32x512x64_2_1_1_2_0_0 none x (tC C) (ValueIdx.ix3 t d r)
      = ((∑ n, X t d n * Cm t r n : ℝ) : EReal) := by
    rw [dot_XCt, coe_sum]
    refine Finset.sum_congr rfl fun n _ => ?_
    rw [tC_apply, hx t d n, hC t r n, EReal.coe_mul]
  -- the product D C
  have hP : ∀ n : Fin 2048, Host.dotGeneral (F := Ideal) dot_S32x512x64_S32x64x2048_S32x512x2048_2_1_1_2_0_0 none D C (ValueIdx.ix3 t d n)
      = ((prod (Dm t) (Cm t) d n : ℝ) : EReal) := by
    intro n
    unfold prod
    rw [dot_DC, coe_sum]
    refine Finset.sum_congr rfl fun s _ => ?_
    rw [hD t d s, hC t s n, EReal.coe_mul]
  -- (D C) C^T
  have hden : Host.dotGeneral (F := Ideal) dot_S32x512x2048_S32x2048x64_S32x512x64_2_1_1_2_0_0 none
        (Host.dotGeneral (F := Ideal) dot_S32x512x64_S32x64x2048_S32x512x2048_2_1_1_2_0_0 none D C) (tC C) (ValueIdx.ix3 t d r)
      = ((∑ n, prod (Dm t) (Cm t) d n * Cm t r n : ℝ) : EReal) := by
    rw [dot_XCt, coe_sum]
    refine Finset.sum_congr rfl fun n _ => ?_
    rw [hP n, tC_apply, hC t r n, EReal.coe_mul]
  unfold Cert.Nmf.R.stepD
  rw [ValueIdx.mulf_apply, hostDivf_apply, ValueIdx.addf_apply, hnum, hden, splat_apply, eps_bits, hD t d r, ← EReal.coe_add,
    div_coe_coe _ _ (denD_pos (hD0 t) (hC0 t) d r).ne', ← EReal.coe_mul]
  rfl

/-! ### The six updates and the final product -/

/-- The rectified data array holds, batch by batch, the rectified data. -/
theorem xrect_rep (x : FVec Ideal S32x512x2048 .f32) (X : Fin 32 → MX) (hx : Rep3 x X) :
    Rep3 (xrect (F := Ideal) x) (fun t => relu (X t)) := by
  intro t d n
  unfold xrect
  rw [ValueIdx.maximumf_apply, splat_apply, zero_bits, hx t d n]
  exact (EReal.coe_strictMono.monotone.map_max).symm

/-- The left factor repeated along the batch axis holds the same matrix in every batch. -/
theorem D0_rep (D : FVec Ideal S512x64 .f32) (Dm : MD) (hD : Rep2 D Dm) : Rep3 (D0 (F := Ideal) D) (fun _ => Dm) := by
  intro t d s
  unfold D0
  refine (broadcastInDim_apply _ _ D (ValueIdx.ix3 t d s) (ValueIdx.ix2 d s) (fun a => match a with
    | ⟨0, _⟩ => by show d.val = if (512 : ℕ) = 1 then 0 else d.val; rw [if_neg (by decide)]
    | ⟨1, _⟩ => by show s.val = if (64 : ℕ) = 1 then 0 else s.val; rw [if_neg (by decide)])).trans (hD d s)

/-- The right factor repeated along the batch axis holds the same matrix in every batch. -/
theorem C0_rep (C : FVec Ideal S64x2048 .f32) (Cm : MC) (hC : Rep2 C Cm) : Rep3 (C0 (F := Ideal) C) (fun _ => Cm) := by
  intro t s n
  unfold C0
  refine (broadcastInDim_apply _ _ C (ValueIdx.ix3 t s n) (ValueIdx.ix2 s n) (fun a => match a with
    | ⟨0, _⟩ => by show s.val = if (64 : ℕ) = 1 then 0 else s.val; rw [if_neg (by decide)]
    | ⟨1, _⟩ => by show n.val = if (2048 : ℕ) = 1 then 0 else n.val; rw [if_neg (by decide)])).trans (hC s n)

/-- One more update: arrays that hold the k-th iterates of non-negative factors on non-negative data are updated to
    arrays that hold the (k+1)-th iterates. -/
theorem step_rep (x : FVec Ideal S32x512x2048 .f32) (D : FVec Ideal S32x512x64 .f32) (C : FVec Ideal S32x64x2048 .f32)
    (X : Fin 32 → MX) (Dm : MD) (Cm : MC) (k : ℕ) (hX : ∀ t, Nonneg2 (X t)) (hD0 : Nonneg2 Dm) (hC0 : Nonneg2 Cm)
    (hx : Rep3 x X) (hD : Rep3 D (fun t => (iter (X t) k (Dm, Cm)).1)) (hC : Rep3 C (fun t => (iter (X t) k (Dm, Cm)).2)) :
    Rep3 (stepD (F := Ideal) x D C) (fun t => (iter (X t) (k + 1) (Dm, Cm)).1)
      ∧ Rep3 (stepC (F := Ideal) x D C) (fun t => (iter (X t) (k + 1) (Dm, Cm)).2) :=
  ⟨stepD_rep x D C X _ _ hx hD hC (fun t => (iter_nonneg (hX t) hD0 hC0 k).1) (fun t => (iter_nonneg (hX t) hD0 hC0 k).2),
   stepC_rep x D C X _ _ hx hD hC (fun t => (iter_nonneg (hX t) hD0 hC0 k).1) (fun t => (iter_nonneg (hX t) hD0 hC0 k).2)⟩

/-- The reference's result holds, batch by batch, the real computation `spec` of the data slab and the two factors. -/
theorem result_rep (x : FVec Ideal S32x512x2048 .f32) (D : FVec Ideal S512x64 .f32) (C : FVec Ideal S64x2048 .f32)
    (X : Fin 32 → MX) (Dm : MD) (Cm : MC) (hx : Rep3 x X) (hD : Rep2 D Dm) (hC : Rep2 C Cm)
    (hD0 : Nonneg2 Dm) (hC0 : Nonneg2 Cm) :
    Rep3 (result (F := Ideal) x D C) (fun t => spec (X t) Dm Cm) := by
  have hR : ∀ t, Nonneg2 (relu (X t)) := fun t => relu_nonneg (X t)
  have hxr := xrect_rep x X hx
  -- the factors before any update, then after one to six updates
  have h0 : Rep3 (D0 (F := Ideal) D) (fun t => (iter (relu (X t)) 0 (Dm, Cm)).1)
      ∧ Rep3 (C0 (F := Ideal) C) (fun t => (iter (relu (X t)) 0 (Dm, Cm)).2) := ⟨D0_rep D Dm hD, C0_rep C Cm hC⟩
  have h1 : Rep3 (D1 (xrect x) (D0 D) (C0 C)) (fun t => (iter (relu (X t)) 1 (Dm, Cm)).1)
      ∧ Rep3 (C1 (xrect x) (D0 D) (C0 C)) (fun t => (iter (relu (X t)) 1 (Dm, Cm)).2) :=
    step_rep (xrect x) (D0 D) (C0 C) _ Dm Cm 0 hR hD0 hC0 hxr h0.1 h0.2
  have h2 : Rep3 (D2 (xrect x) (D0 D) (C0 C)) (fun t => (iter (relu (X t)) 2 (Dm, Cm)).1)
      ∧ Rep3 (C2 (xrect x) (D0 D) (C0 C)) (fun t => (iter (relu (X t)) 2 (Dm, Cm)).2) :=
    step_rep (xrect x) (D1 (xrect x) (D0 D) (C0 C)) (C1 (xrect x) (D0 D) (C0 C)) _ Dm Cm 1 hR hD0 hC0 hxr h1.1 h1.2
  have h3 : Rep3 (D3 (xrect x) (D0 D) (C0 C)) (fun t => (iter (relu (X t)) 3 (Dm, Cm)).1)
      ∧ Rep3 (C3 (xrect x) (D0 D) (C0 C)) (fun t => (iter (relu (X t)) 3 (Dm, Cm)).2) :=
    step_rep (xrect x) (D2 (xrect x) (D0 D) (C0 C)) (C2 (xrect x) (D0 D) (C0 C)) _ Dm Cm 2 hR hD0 hC0 hxr h2.1 h2.2
  have h4 : Rep3 (D4 (xrect x) (D0 D) (C0 C)) (fun t => (iter (relu (X t)) 4 (Dm, Cm)).1)
      ∧ Rep3 (C4 (xrect x) (D0 D) (C0 C)) (fun t => (iter (relu (X t)) 4 (Dm, Cm)).2) :=
    step_rep (xrect x) (D3 (xrect x) (D0 D) (C0 C)) (C3 (xrect x) (D0 D) (C0 C)) _ Dm Cm 3 hR hD0 hC0 hxr h3.1 h3.2
  have h5 : Rep3 (D5 (xrect x) (D0 D) (C0 C)) (fun t => (iter (relu (X t)) 5 (Dm, Cm)).1)
      ∧ Rep3 (C5 (xrect x) (D0 D) (C0 C)) (fun t => (iter (relu (X t)) 5 (Dm, Cm)).2) :=
    step_rep (xrect x) (D4 (xrect x) (D0 D) (C0 C)) (C4 (xrect x) (D0 D) (C0 C)) _ Dm Cm 4 hR hD0 hC0 hxr h4.1 h4.2
  have h6 : Rep3 (D6 (xrect x) (D0 D) (C0 C)) (fun t => (iter (relu (X t)) 6 (Dm, Cm)).1)
      ∧ Rep3 (C6 (xrect x) (D0 D) (C0 C)) (fun t => (iter (relu (X t)) 6 (Dm, Cm)).2) :=
    step_rep (xrect x) (D5 (xrect x) (D0 D) (C0 C)) (C5 (xrect x) (D0 D) (C0 C)) _ Dm Cm 5 hR hD0 hC0 hxr h5.1 h5.2
  -- the final product
  intro t d n
  have e : spec (X t) Dm Cm d n
      = ∑ s, (iter (relu (X t)) 6 (Dm, Cm)).1 d s * (iter (relu (X t)) 6 (Dm, Cm)).2 s n := rfl
  show result (F := Ideal) x D C (ValueIdx.ix3 t d n) = ((spec (X t) Dm Cm d n : ℝ) : EReal)
  rw [e, coe_sum]
  unfold result
  rw [dot_DC]
  refine Finset.sum_congr rfl fun s _ => ?_
  rw [h6.1 t d s, h6.2 t s n, EReal.coe_mul]

end Cert.Nmf.R

end
-- ==== Proof.lean ====
/-
  The certificate of the multiplicative-update kernel against its batched reference, over the extended reals, for
  argument arrays whose data entries are finite and whose two factors are finite and NON-NEGATIVE.

  Both programs rectify the data X, start from the factors D (512 x 64) and C (64 x 2048), apply six times the update
      C <- C * (D^T X / (D^T D C + eps)),     D <- D * (X C^T / (D C C^T + eps)),
  and return the product D C; the kernel does so slab by slab of the data (one grid point per batch entry, the factors staged
  whole), the reference on factors repeated along the batch axis.  They differ in one grouping: the kernel forms
  D^T (D C), the reference (D^T D) C.  On non-negative real factors every denominator is at least eps > 0, so every
  quotient is a quotient of real numbers and every intermediate value is a non-negative real number; over the reals the
  matrix product is associative, so the two groupings agree and both programs compute, batch entry by batch entry, the real
  function `Cert.Nmf.spec`.  (Without non-negativity a denominator can vanish, the exact quotient is then infinite, and on
  the extended reals the two groupings can differ; that is why the factors' sign is part of the precondition.)

  The pieces: KernelDefs / RefDefs name one update of each program; KernelBody identifies the kernel's stored block with six
  named updates; KernelArray carries blocks to the whole result array; RefRun reads the reference's run update by update;
  NmfReal is the update over the reals; KernelStep / RefStep read one update of each program on arrays that hold real
  matrices; PreFacts reads the precondition.  Here: the two arrays agree index by index, and the five claims.
-/
import proofs.«108616_j8220567404862_1_alg».proof.Defs
import proofs.«108616_j8220567404862_1_alg».proof.Proof.Gen.Kernel
import proofs.«108616_j8220567404862_1_alg».proof.Proof.Gen.Kernel.Skeleton
import proofs.«108616_j8220567404862_1_alg».proof.Proof.Gen.Kernel.Launch
import proofs.«108616_j8220567404862_1_alg».proof.Proof.Gen.Kernel.Points
import proofs.«108616_j8220567404862_1_alg».proof.Proof.Gen.Kernel.Frame
import proofs.«108616_j8220567404862_1_alg».proof.Proof.Gen.KernelIdeal
import proofs.«108616_j8220567404862_1_alg».proof.Proof.Gen.KernelIdeal.Skeleton
import proofs.«108616_j8220567404862_1_alg».proof.Proof.Gen.KernelIdeal.Launch
import proofs.«108616_j8220567404862_1_alg».proof.Proof.Gen.KernelIdeal.Points
import proofs.«108616_j8220567404862_1_alg».proof.Proof.Gen.KernelIdeal.Frame
import proofs.«108616_j8220567404862_1_alg».proof.Proof.Gen.ReferenceIdeal
import proofs.«108616_j8220567404862_1_alg».proof.Proof.Gen.Pre_finite_inputs
import proofs.«108616_j8220567404862_1_alg».proof.Proof.Gen.KernelIdeal.Value
import proofs.«108616_j8220567404862_1_alg».proof.Proof.NmfReal
import proofs.«108616_j8220567404862_1_alg».proof.Proof.PreFacts
import proofs.«108616_j8220567404862_1_alg».proof.Proof.KernelStep
import proofs.«108616_j8220567404862_1_alg».proof.Proof.KernelArray
import proofs.«108616_j8220567404862_1_alg».proof.Proof.RefStep
import proofs.«108616_j8220567404862_1_alg».proof.Proof.RefRun
import Idealize.ShloMosaic.Adequacy
import Idealize.ShloMosaic.Init

noncomputable section

namespace Cert.Nmf

open Idealize.ShloMosaic Idealize.ShloMosaic.ValueIdx

/-- Under the precondition the kernel's result array and the reference's result are one array: at batch entry t both
    hold `spec` of slab t of the data and the two factors. -/
theorem array_eq_result (x : FVec Ideal Cert.KernelIdeal.S32x512x2048 .f32) (D : FVec Ideal Cert.KernelIdeal.S512x64 .f32)
    (C : FVec Ideal Cert.KernelIdeal.S64x2048 .f32)
    (h : Cert.Pre_finite_inputs.fn (F := Ideal) x D C = fun _ => 1#1) :
    K.array (F := Ideal) x D C = R.result (F := Ideal) x D C := by
  obtain ⟨fx, fD, fC⟩ := pre_facts x D C h
  choose xr hxr using fx
  choose Dr hD0 hDr using fD
  choose Cr hC0 hCr using fC
  have hD : Rep2 D (fun p q => Dr (ix2 p q)) := fun p q => hDr _
  have hC : Rep2 C (fun p q => Cr (ix2 p q)) := fun p q => hCr _
  have hx : Rep3 x (fun t p q => xr (ix3 t p q)) := fun t p q => hxr _
  have hDn : Nonneg2 (fun (p : Fin 512) (q : Fin 64) => Dr (ix2 p q)) := fun p q => hD0 _
  have hCn : Nonneg2 (fun (p : Fin 64) (q : Fin 2048) => Cr (ix2 p q)) := fun p q => hC0 _
  have hR := R.result_rep x D C (fun t p q => xr (ix3 t p q)) (fun p q => Dr (ix2 p q)) (fun p q => Cr (ix2 p q)) hx hD hC hDn hCn
  funext i
  obtain ⟨t, p, q, rfl⟩ : ∃ (t : Fin 32) (p : Fin 512) (q : Fin 2048), i = ix3 t p q := ⟨i 0, i 1, i 2, eq_ix3 i⟩
  rw [hR t p q]
  show K.block (F := Ideal) (K.slab x t) D C (ix3 (0 : Fin 1) p q) = _
  exact K.block_rep (K.slab x t) D C (fun p q => xr (ix3 t p q)) (fun p q => Dr (ix2 p q)) (fun p q => Cr (ix2 p q))
    (fun p q => hxr (ix3 t p q)) hD hC hDn hCn p q

end Cert.Nmf

namespace Cert.Proof

open Idealize.ShloMosaic Idealize.SL.Sem

/-- The word-level kernel runs and leaves its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments: its run with the result dropped. -/
theorem frame_ri : Cert.frame_ReferenceIdeal := fun m ρ _ =>
  (θ_run Cert.ReferenceIdeal.defs _ _).mono (fun _ h c => (h c).2) (Cert.Nmf.RefRun.run (F := Ideal) m ρ)

/-- From memories that agree on the arguments both idealized programs end with the same result array. -/
theorem algebraic : Cert.algebraic_KernelIdeal_ReferenceIdeal := by
  intro m ρ m' ρ' hpre hagree
  refine ⟨fun c => Cert.Nmf.K.array (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Nmf.K.run (F := Ideal) m ρ, ?_⟩
  refine (θ_run Cert.ReferenceIdeal.defs _ _).mono (fun _ h c => ⟨(h c).1.trans ?_, (h c).2⟩)
    (Cert.Nmf.RefRun.run (F := Ideal) m' ρ')
  rw [(hagree c).1, (hagree c).2.1, (hagree c).2.2]
  exact (Cert.Nmf.array_eq_result _ _ _ (hpre c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
